-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x128 : Shape := ⟨4, ![2, 16, 2048, 128]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel

variable [Facts]

def fn {F : FTy → Type} [FloatOps F] (main_arg0 : FVec F S2x16x2048x128 .f32) (main_arg1 : FVec F S2x16x2048x128 .f32) (main_arg2 : FVec F S2x16x2048x128 .f32) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x2048x128 .f32 := Host.absf main_arg1
  let main_cst_0 : FVec F S_ .f32 := constant S_ .f32 0x7F800000#32
  let main_v5 : FVec F S2x16x2048x128 .f32 := broadcastInDim S2x16x2048x128 ![] bcast_S_S2x16x2048x128 main_cst_0
  let main_v6 : IVec S2x16x2048x128 1 := cmpf .olt main_v4 main_v5
  let main_c_1 : IVec S_ 1 := constantI S_ 1 1#1
  let main_v7 : IVec S_ 1 := (fun x v => Host.reduce IntOp.andi x v reducesTo_S2x16x2048x128_S_d0_1_2_3 h_S_) main_v6 main_c_1
  let main_v8 : IVec S_ 1 := andi main_v3 main_v7
  let main_v9 : FVec F S2x16x2048x128 .f32 := Host.absf main_arg2
  let main_cst_2 : FVec F S_ .f32 := constant S_ .f32 0x7F800000#32
  let main_v10 : FVec F S2x16x2048x128 .f32 := broadcastInDim S2x16x2048x128 ![] bcast_S_S2x16x2048x128 main_cst_2
  let main_v11 : IVec S2x16x2048x128 1 := cmpf .olt main_v9 main_v10
  let main_c_3 : IVec S_ 1 := constantI S_ 1 1#1
  let main_v12 : IVec S_ 1 := (fun x v => Host.reduce IntOp.andi x v reducesTo_S2x16x2048x128_S_d0_1_2_3 h_S_) main_v11 main_c_3
  let main_v13 : IVec S_ 1 := andi main_v8 main_v12
  main_v13
-- ==== Kernel.lean ====
abbrev S2x16x2048x128 : Shape := ⟨4, ![2, 16, 2048, 128]⟩
abbrev S_ : Shape := ⟨0, ![]⟩
abbrev S2x16x2048 : Shape := ⟨3, ![2, 16, 2048]⟩
abbrev S2x16x2048x1 : Shape := ⟨4, ![2, 16, 2048, 1]⟩
abbrev S2x16x1x2048 : Shape := ⟨4, ![2, 16, 1, 2048]⟩
abbrev S32x2048x128 : Shape := ⟨3, ![32, 2048, 128]⟩
abbrev S32x2048x1 : Shape := ⟨3, ![32, 2048, 1]⟩
abbrev S32x1x2048 : Shape := ⟨3, ![32, 1, 2048]⟩
abbrev S1x512x128 : Shape := ⟨3, ![1, 512, 128]⟩
abbrev S1x512x1 : Shape := ⟨3, ![1, 512, 1]⟩
abbrev S1x1x512 : Shape := ⟨3, ![1, 1, 512]⟩
abbrev S512x128 : Shape := ⟨2, ![512, 128]⟩
abbrev S512x1 : Shape := ⟨2, ![512, 1]⟩
abbrev S1x512 : Shape := ⟨2, ![1, 512]⟩
abbrev S128x512 : Shape := ⟨2, ![128, 512]⟩
abbrev S512x512 : Shape := ⟨2, ![512, 512]⟩

abbrev nBuf : Space → Nat
  | .hbm => 25
  | .vmem => 12
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S2x16x2048x128, .f32⟩
  | .hbm, ⟨4, _⟩ => ⟨S_, .f32⟩
  | .hbm, ⟨5, _⟩ => ⟨S2x16x2048, .f32⟩
  | .hbm, ⟨6, _⟩ => ⟨S2x16x2048x1, .f32⟩
  | .hbm, ⟨7, _⟩ => ⟨S_, .f32⟩
  | .hbm, ⟨8, _⟩ => ⟨S2x16x2048x1, .f32⟩
  | .hbm, ⟨9, _⟩ => ⟨S2x16x2048x1, .f32⟩
  | .hbm, ⟨10, _⟩ => ⟨S2x16x2048x128, .f32⟩
  | .hbm, ⟨11, _⟩ => ⟨S_, .f32⟩
  | .hbm, ⟨12, _⟩ => ⟨S2x16x2048, .f32⟩
  | .hbm, ⟨13, _⟩ => ⟨S2x16x2048x1, .f32⟩
  | .hbm, ⟨14, _⟩ => ⟨S_, .f32⟩
  | .hbm, ⟨15, _⟩ => ⟨S2x16x2048x1, .f32⟩
  | .hbm, ⟨16, _⟩ => ⟨S2x16x2048x1, .f32⟩
  | .hbm, ⟨17, _⟩ => ⟨S2x16x1x2048, .f32⟩
  | .hbm, ⟨18, _⟩ => ⟨S32x2048x128, .f32⟩
  | .hbm, ⟨19, _⟩ => ⟨S32x2048x128, .f32⟩
  | .hbm, ⟨20, _⟩ => ⟨S32x2048x128, .f32⟩
  | .hbm, ⟨21, _⟩ => ⟨S32x2048x1, .f32⟩
  | .hbm, ⟨22, _⟩ => ⟨S32x1x2048, .f32⟩
  | .hbm, ⟨23, _⟩ => ⟨S32x2048x128, .f32⟩
  | .hbm, ⟨24, _⟩ => ⟨S2x16x2048x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x1, .f32⟩
  | .local _ .vmem, ⟨7, _⟩ => ⟨S1x512x1, .f32⟩
  | .local _ .vmem, ⟨8, _⟩ => ⟨S1x1x512, .f32⟩
  | .local _ .vmem, ⟨9, _⟩ => ⟨S1x1x512, .f32⟩
  | .local _ .vmem, ⟨10, _⟩ => ⟨S1x512x128, .f32⟩
  | .local _ .vmem, ⟨11, _⟩ => ⟨S1x512x128, .f32⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![32, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c512_i32 : BitVec 32 := 512#32
  let v3 : BitVec 32 := Scalar.muli arg2 c512_i32
  let arg1 : BitVec 32 := BitVec.ofNat 32 (i 1).val
  let c1_i32 : BitVec 32 := 1#32
  let v4 : BitVec 32 := Scalar.addi arg1 c1_i32
  let c512_i32_1 : BitVec 32 := 512#32
  let v5 : BitVec 32 := Scalar.muli v4 c512_i32_1
  let v6 : BitVec 1 := Scalar.cmpi .slt v3 v5
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  reducesTo_S2x16x2048x128_S2x16x2048_d3 : S2x16x2048x128.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S_S2x16x2048x1 : S_.BroadcastsInDim S2x16x2048x1 (![] : Fin 0 → Fin S2x16x2048x1.rank)
  transposes_S2x16x2048x1_S2x16x1x2048_0_1_3_2 : S2x16x2048x1.Transposes [0, 1, 3, 2] S2x16x1x2048
  shapeCasts_S2x16x2048x128_S32x2048x128 : S2x16x2048x128.ShapeCasts S32x2048x128
  shapeCasts_S2x16x2048x1_S32x2048x1 : S2x16x2048x1.ShapeCasts S32x2048x1
  shapeCasts_S2x16x1x2048_S32x1x2048 : S2x16x1x2048.ShapeCasts S32x1x2048
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  bitsLt_bf16_f32 : FTy.bits .bf16 < FTy.bits .f32
  transposes_S512x128_p1_0_S128x512 : S512x128.Transposes [1, 0] S128x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  shapeCasts_S32x2048x128_S2x16x2048x128 : S32x2048x128.ShapeCasts S2x16x2048x128
  dot_S512x128_S128x512_S512x512_1_0_0_1_n_n_wf : DotDims.WF S512x128 S128x512 S512x512 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S32x2048x128.size a
  hwx0_0 : ∀ i : grid0.Coords, EltTy.bits .f32 = 32 ∨ (Rect.block (s := S32x2048x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S32x2048x128.size a
  hwx0_1 : ∀ i : grid0.Coords, EltTy.bits .f32 = 32 ∨ (Rect.block (s := S32x2048x128) S1x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S32x2048x128.size a
  hwx0_2 : ∀ i : grid0.Coords, EltTy.bits .f32 = 32 ∨ (Rect.block (s := S32x2048x128) S1x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S32x2048x1.size a
  hwx0_3 : ∀ i : grid0.Coords, EltTy.bits .f32 = 32 ∨ (Rect.block (s := S32x2048x1) S1x512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S32x1x2048.size a
  hwx0_4 : ∀ i : grid0.Coords, EltTy.bits .f32 = 32 ∨ (Rect.block (s := S32x1x2048) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x128.size a ≤ S32x2048x128.size a
  hwx0_5 : ∀ i : grid0.Coords, EltTy.bits .f32 = 32 ∨ (Rect.block (s := S32x2048x128) S1x512x128.size (cc0_transform_5 i) (hinb0_5 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_v11) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) | ⟨_ + 6, h⟩ => absurd h (Nat.not_lt.2 (Nat.le_add_left _ _))

class Facts : Prop extends Facts₀ where

variable [Facts]
-- ==== ReferenceIdeal.lean ====
abbrev S2x16x2048x128 : Shape := ⟨4, ![2, 16, 2048, 128]⟩
abbrev S_ : Shape := ⟨0, ![]⟩
abbrev S2x16x2048 : Shape := ⟨3, ![2, 16, 2048]⟩
abbrev S2x16x2048x2048 : Shape := ⟨4, ![2, 16, 2048, 2048]⟩
abbrev S2x16x2048x1 : Shape := ⟨4, ![2, 16, 2048, 1]⟩
abbrev S2x16x1x2048 : Shape := ⟨4, ![2, 16, 1, 2048]⟩
abbrev S2048x2048 : Shape := ⟨2, ![2048, 2048]⟩

abbrev nBuf : Space → Nat
  | .hbm => 45
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S2x16x2048x128, .f32⟩
  | .hbm, ⟨4, _⟩ => ⟨S_, .f32⟩
  | .hbm, ⟨5, _⟩ => ⟨S2x16x2048, .f32⟩
  | .hbm, ⟨6, _⟩ => ⟨S_, .f32⟩
  | .hbm, ⟨7, _⟩ => ⟨S2x16x2048, .f32⟩
  | .hbm, ⟨8, _⟩ => ⟨S2x16x2048, .f32⟩
  | .hbm, ⟨9, _⟩ => ⟨S2x16x2048x128, .f32⟩
  | .hbm, ⟨10, _⟩ => ⟨S_, .f32⟩
  | .hbm, ⟨11, _⟩ => ⟨S2x16x2048, .f32⟩
  | .hbm, ⟨12, _⟩ => ⟨S_, .f32⟩
  | .hbm, ⟨13, _⟩ => ⟨S2x16x2048, .f32⟩
  | .hbm, ⟨14, _⟩ => ⟨S2x16x2048, .f32⟩
  | .hbm, ⟨15, _⟩ => ⟨S2x16x2048x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x16x2048x2048, .f32⟩
  | .hbm, ⟨20, _⟩ => ⟨S2x16x2048x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x1x2048, .f32⟩
  | .hbm, ⟨25, _⟩ => ⟨S2x16x2048x2048, .f32⟩
  | .hbm, ⟨26, _⟩ => ⟨S2x16x2048x2048, .f32⟩
  | .hbm, ⟨27, _⟩ => ⟨S_, .i1⟩
  | .hbm, ⟨28, _⟩ => ⟨S2048x2048, .i1⟩
  | .hbm, ⟨29, _⟩ => ⟨S2048x2048, .i32⟩
  | .hbm, ⟨30, _⟩ => ⟨S_, .i32⟩
  | .hbm, ⟨31, _⟩ => ⟨S2048x2048, .i32⟩
  | .hbm, ⟨32, _⟩ => ⟨S2048x2048, .i32⟩
  | .hbm, ⟨33, _⟩ => ⟨S2048x2048, .i32⟩
  | .hbm, ⟨34, _⟩ => ⟨S2048x2048, .i1⟩
  | .hbm, ⟨35, _⟩ => ⟨S_, .i1⟩
  | .hbm, ⟨36, _⟩ => ⟨S2048x2048, .i1⟩
  | .hbm, ⟨37, _⟩ => ⟨S2048x2048, .i1⟩
  | .hbm, ⟨38, _⟩ => ⟨S_, .f32⟩
  | .hbm, ⟨39, _⟩ => ⟨S_, .f32⟩
  | .hbm, ⟨40, _⟩ => ⟨S2x16x2048x2048, .i1⟩
  | .hbm, ⟨41, _⟩ => ⟨S2x16x2048x2048, .f32⟩
  | .hbm, ⟨42, _⟩ => ⟨S2x16x2048x2048, .f32⟩
  | .hbm, ⟨43, _⟩ => ⟨S2x16x2048x2048, .f32⟩
  | .hbm, ⟨44, _⟩ => ⟨S2x16x2048x128, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_c_0 : Ref sig .tc := ⟨.hbm, 35, rfl⟩
abbrev main_call0_v5 : Ref sig .tc := ⟨.hbm, 36, rfl⟩
abbrev main_v19 : Ref sig .tc := ⟨.hbm, 37, rfl⟩
abbrev main_cst_5 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩

abbrev nD : Nat := 1
abbrev τ : Topo := Topo.v7x

variable {F : FTy → Type} [FloatOps F]

class Facts₀ : Prop where
  reducesTo_S2x16x2048x128_S2x16x2048_d3 : S2x16x2048x128.ReducesTo [3] S2x16x2048
  h_S_ : 0 < S_.numel
  bcast_S_S2x16x2048 : S_.BroadcastsInDim S2x16x2048 (![] : Fin 0 → Fin S2x16x2048.rank)
  bcast_S_S2x16x2048x2048 : S_.BroadcastsInDim S2x16x2048x2048 (![] : Fin 0 → Fin S2x16x2048x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  bcast_S2x16x2048_S2x16x1x2048_0_1_3 : S2x16x2048.BroadcastsInDim S2x16x1x2048 (![0, 1, 3] : Fin 3 → Fin S2x16x1x2048.rank)
  bcast_S2x16x1x2048_S2x16x2048x2048_0_1_2_3 : S2x16x1x2048.BroadcastsInDim S2x16x2048x2048 (![0, 1, 2, 3] : Fin 4 → Fin S2x16x2048x2048.rank)
  bcast_S_S2048x2048 : S_.BroadcastsInDim S2048x2048 (![] : Fin 0 → Fin S2048x2048.rank)
  bcast_S2048x2048_S2x16x2048x2048_2_3 : S2048x2048.BroadcastsInDim S2x16x2048x2048 (![2, 3] : Fin 2 → Fin S2x16x2048x2048.rank)
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.Kernel.Cases.lean ====
/-
  The grid of the one pallas_call is 32 x 4 x 4: a point t is (bh, qi, ki) with t = 16 bh + 4 qi + ki, so
  ki = t % 4 and qi = (t / 4) % 4. The body has two conditionals on the coordinates: the output block is
  reset where ki = 0, and a tile's product is added where the tile meets the causal triangle, ki * 512 < (qi + 1) * 512,
  that is ki <= qi. Both are decided here once over the 512 points, with where the output window is idle
  (neither branch stores) and the names of the staging buffers the body is called with.
-/
import proofs.«104374_j17832704213564_1_alg».proof.Proof.Gen.Kernel.Frame
import proofs.«104374_j17832704213564_1_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch is taken exactly where the last grid coordinate is 0. -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)

/-- The accumulating branch is taken exactly where the key tile is not past the query tile: ki ≤ qi. -/
theorem hcond2 : ∀ t : Fin cfg0.N, k0_cond2 (grid0.coords t) = 1#1 ↔ t.val % 4 ≤ t.val / 4 % 4 :=
  (by decide +kernel : ∀ t : Fin grid0.N, k0_cond2 (grid0.coords t) = 1#1 ↔ t.val % 4 ≤ t.val / 4 % 4)

/-- The input windows are never idle. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl

/-- Where the accumulating branch is taken the output window is live. -/
theorem live5 : ∀ t : Fin cfg0.N, t.val % 4 ≤ t.val / 4 % 4 → cfg0.idle 5 (grid0.coords t) = false :=
  (by decide +kernel : ∀ t : Fin grid0.N, t.val % 4 ≤ t.val / 4 % 4 → idle0 5 (grid0.coords t) = false)

/-- Where neither branch is taken the output window is idle. -/
theorem idle5 : ∀ t : Fin cfg0.N, ¬t.val % 4 = 0 → ¬t.val % 4 ≤ t.val / 4 % 4 → cfg0.idle 5 (grid0.coords t) = true :=
  (by decide +kernel : ∀ t : Fin grid0.N, ¬t.val % 4 = 0 → ¬t.val % 4 ≤ t.val / 4 % 4 → idle0 5 (grid0.coords t) = true)

/-- Each window's current staging memref at point `t`, as the pipeline passes it to the body, and its wholeness. -/
abbrev ms0 (t : Fin cfg0.N) : Memref sig .tc .vmem S1x512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x128 .f32 := win0_5.stage (cfg0.slots t 5)
abbrev hs5 (t : Fin cfg0.N) : (ms5 t).IsWhole := hstage0_5 ((cfg0.slots t 5).cast nbuf0_5)

/-- One staging buffer of the output window, as a view: the block's contents are stated through it. -/
abbrev VO : View sig .tc .vmem S1x512x128 .f32 := (Memref.whole cc0_stg5_0 : Memref sig .tc .vmem S1x512x128 .f32).view

end Cert.Kernel.Hand

end
-- ==== Proof.Kernel.RunAdd.lean ====
/-
  The kernel body run once on whole staging buffers where the output block is NOT reset and the tile's product IS added (0 < ki ≤ qi): the output buffer is read (at its running contents) before it is stored whole.
  The result is a pair: the list of pieces the body's stores leave in the output buffer, and the triple saying that from
  the inputs' buffers at given contents the body runs to a continuation that gets the inputs' buffers back unchanged
  and the output buffer with exactly those pieces written. What the pieces hold as a function of the loads is read
  off them later; nothing of the arithmetic is used here.
-/
import proofs.«104374_j17832704213564_1_alg».proof.Proof.Kernel.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runAdd (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x512x128 .f32) (harg8 : arg8.IsWhole)
    (hc1 : ¬k0_cond1 i = 1#1) (hc2 : k0_cond2 i = 1#1) (x0 x1 x2 : Vec F S1x512x128 .f32) (x3 : Vec F S1x512x1 .f32) (x4 : Vec F S1x1x512 .f32) (xo : Vec F S1x512x128 .f32) :
    { L : List (View.Piece (Elt F) S1x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L)) -∗ K ⟨⟩))
          ⊢ wp frame (wpE (defs₀ (F := F)) Variants.none c none) E (cc0__rbf_causal_kernel i arg3 harg3 arg4 harg4 arg5 harg5 arg6 harg6 arg7 harg7 arg8 harg8) K } := by
  refine ⟨?_, fun E K => ?run⟩
  case run =>
    simp only [cc0__rbf_causal_kernel_eq_skeleton]; unfold cc0__rbf_causal_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

end Cert.Kernel.Hand

end
-- ==== Proof.Kernel.RunReset.lean ====
/-
  The kernel body run once on whole staging buffers where the output block IS reset and the tile's product IS added (ki = 0): the output buffer is stored whole, read back, and stored whole again; what it held before does not matter.
  The result is a pair: the list of pieces the body's stores leave in the output buffer, and the triple saying that from
  the inputs' buffers at given contents the body runs to a continuation that gets the inputs' buffers back unchanged
  and the output buffer with exactly those pieces written. What the pieces hold as a function of the loads is read
  off them later; nothing of the arithmetic is used here.
-/
import proofs.«104374_j17832704213564_1_alg».proof.Proof.Kernel.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runReset (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x512x128 .f32) (harg8 : arg8.IsWhole)
    (hc1 : k0_cond1 i = 1#1) (hc2 : k0_cond2 i = 1#1) (x0 x1 x2 : Vec F S1x512x128 .f32) (x3 : Vec F S1x512x1 .f32) (x4 : Vec F S1x1x512 .f32) :
    { L : List (View.Piece (Elt F) S1x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L)) -∗ K ⟨⟩))
          ⊢ wp frame (wpE (defs₀ (F := F)) Variants.none c none) E (cc0__rbf_causal_kernel i arg3 harg3 arg4 harg4 arg5 harg5 arg6 harg6 arg7 harg7 arg8 harg8) K } := by
  refine ⟨?_, fun E K => ?run⟩
  case run =>
    simp only [cc0__rbf_causal_kernel_eq_skeleton]; unfold cc0__rbf_causal_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

end Cert.Kernel.Hand

end
-- ==== Proof.Kernel.RunSkip.lean ====
/-
  The kernel body run once on whole staging buffers where neither branch is taken (ki > qi): the body touches no buffer, so whatever the continuation needs is handed to it as it stands.
  The result is a pair: the list of pieces the body's stores leave in the output buffer, and the triple saying that from
  the inputs' buffers at given contents the body runs to a continuation that gets the inputs' buffers back unchanged
  and the output buffer with exactly those pieces written. What the pieces hold as a function of the loads is read
  off them later; nothing of the arithmetic is used here.
-/
import proofs.«104374_j17832704213564_1_alg».proof.Proof.Kernel.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runSkip (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x512x128 .f32) (harg8 : arg8.IsWhole)
    (hc1 : ¬k0_cond1 i = 1#1) (hc2 : ¬k0_cond2 i = 1#1) (E : Set ℕ) (K : PUnit → sProp 𝕄) :
    K ⟨⟩ ⊢ wp frame (wpE (defs₀ (F := F)) Variants.none c none) E (cc0__rbf_causal_kernel i arg3 harg3 arg4 harg4 arg5 harg5 arg6 harg6 arg7 harg7 arg8 harg8) K := by
  simp only [cc0__rbf_causal_kernel_eq_skeleton]; unfold cc0__rbf_causal_kernel_skel
  simp only [k0_part1_eq_skeleton]
  iintro Hk
  sl_exec (disch := first | exact hc1 | exact hc2)
  sl_step
  iexact Hk

end Cert.Kernel.Hand

end
-- ==== Proof.Kernel.Region.lean ====
/-
  The frame of the one pallas_call and the contents of its output window, point by point.
  The output block of a query tile stays in its staging buffer along the last grid axis ki = 0, 1, 2, 3 and is
  written back after ki = 3. At ki = 0 the body stores zero and then zero plus the tile's product; at 0 < ki ≤ qi it
  stores what it finds plus the tile's product; at ki > qi it stores nothing. So what the buffer holds after point t,
  `accAt t`, is defined by recursion on t: the reset case's result, the adding case's result over `accAt (t - 1)`, or
  `accAt (t - 1)` itself. The pipeline's own account of what the buffer holds BEFORE point t looks back through the
  points at which the window is idle; it agrees with `accAt (t - 1)` wherever ki ≠ 0 (`before5`). With that the body's
  three runs discharge the body obligation at every point, and the library's launch theorem gives the run of @main:
  it terminates, faults nowhere, and ends with every array of the pipeline at what the write-backs of these
  contents make of it, the argument arrays untouched.
-/
import proofs.«104374_j17832704213564_1_alg».proof.Proof.Kernel.RunAdd
import proofs.«104374_j17832704213564_1_alg».proof.Proof.Kernel.RunReset
import proofs.«104374_j17832704213564_1_alg».proof.Proof.Kernel.RunSkip

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output buffer -/

/-- The reset case's two whole-block stores cover the block. -/
theorem coverReset (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x512x128 .f32) (harg8 : arg8.IsWhole)
    (hc1 : k0_cond1 i = 1#1) (hc2 : k0_cond2 i = 1#1) (x0 x1 x2 : Vec F S1x512x128 .f32) (x3 : Vec F S1x512x1 .f32) (x4 : Vec F S1x1x512 .f32) (y : S1x512x128.Idx) :
    ∃ pc ∈ (runReset c i arg3 harg3 arg4 harg4 arg5 harg5 arg6 harg6 arg7 harg7 arg8 harg8 hc1 hc2 x0 x1 x2 x3 x4).1, y ∈ pc.1.set :=
  View.cover_of_tiledL (runReset c i arg3 harg3 arg4 harg4 arg5 harg5 arg6 harg6 arg7 harg7 arg8 harg8 hc1 hc2 x0 x1 x2 x3 x4).1 S1x512x128.size (by sl_kernel_rfl) y

/-- What the reset case leaves: its pieces read back. -/
def outReset (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x512x128 .f32) (harg8 : arg8.IsWhole)
    (hc1 : k0_cond1 i = 1#1) (hc2 : k0_cond2 i = 1#1) (x0 x1 x2 : Vec F S1x512x128 .f32) (x3 : Vec F S1x512x1 .f32) (x4 : Vec F S1x1x512 .f32) : Vec F S1x512x128 .f32 :=
  VO.read (Elt F) (VO.writes (Elt F) VO.junk (runReset c i arg3 harg3 arg4 harg4 arg5 harg5 arg6 harg6 arg7 harg7 arg8 harg8 hc1 hc2 x0 x1 x2 x3 x4).1)

/-- The adding case's one whole-block store covers the block. -/
theorem coverAdd (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x512x128 .f32) (harg8 : arg8.IsWhole)
    (hc1 : ¬k0_cond1 i = 1#1) (hc2 : k0_cond2 i = 1#1) (x0 x1 x2 : Vec F S1x512x128 .f32) (x3 : Vec F S1x512x1 .f32) (x4 : Vec F S1x1x512 .f32) (xo : Vec F S1x512x128 .f32) (y : S1x512x128.Idx) :
    ∃ pc ∈ (runAdd c i arg3 harg3 arg4 harg4 arg5 harg5 arg6 harg6 arg7 harg7 arg8 harg8 hc1 hc2 x0 x1 x2 x3 x4 xo).1, y ∈ pc.1.set :=
  View.cover_of_tiledL (runAdd c i arg3 harg3 arg4 harg4 arg5 harg5 arg6 harg6 arg7 harg7 arg8 harg8 hc1 hc2 x0 x1 x2 x3 x4 xo).1 S1x512x128.size (by sl_kernel_rfl) y

/-- What the adding case leaves over running contents `xo`: its piece read back. -/
def outAdd (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x512x128 .f32) (harg8 : arg8.IsWhole)
    (hc1 : ¬k0_cond1 i = 1#1) (hc2 : k0_cond2 i = 1#1) (x0 x1 x2 : Vec F S1x512x128 .f32) (x3 : Vec F S1x512x1 .f32) (x4 : Vec F S1x1x512 .f32) (xo : Vec F S1x512x128 .f32) : Vec F S1x512x128 .f32 :=
  VO.read (Elt F) (VO.writes (Elt F) VO.junk (runAdd c i arg3 harg3 arg4 harg4 arg5 harg5 arg6 harg6 arg7 harg7 arg8 harg8 hc1 hc2 x0 x1 x2 x3 x4 xo).1)

/-! ## The output buffer after each point -/

theorem le_at_zero : (0 : ℕ) % 4 ≤ 0 / 4 % 4 := by decide

/-- What the output window's staging buffer holds after the body at position `n`. -/
def accAt (c : Dev nD) : (n : ℕ) → n < cfg0.N → Vec F S1x512x128 .f32
  | 0, hn => outReset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩)
      ((hcond1 ⟨0, hn⟩).mpr (Nat.zero_mod _)) ((hcond2 ⟨0, hn⟩).mpr le_at_zero) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 4 = 0 then
      outReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩)
        ((hcond1 ⟨n + 1, hn⟩).mpr h0) ((hcond2 ⟨n + 1, hn⟩).mpr (show (n + 1) % 4 ≤ (n + 1) / 4 % 4 by omega)) (iblk m c 0 ⟨n + 1, hn⟩) (iblk m c 1 ⟨n + 1, hn⟩) (iblk m c 2 ⟨n + 1, hn⟩) (iblk m c 3 ⟨n + 1, hn⟩) (iblk m c 4 ⟨n + 1, hn⟩)
    else if h1 : (n + 1) % 4 ≤ (n + 1) / 4 % 4 then
      outAdd c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩)
        (fun h => h0 ((hcond1 ⟨n + 1, hn⟩).mp h)) ((hcond2 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩)
        (accAt c n (Nat.lt_of_succ_lt hn))
    else accAt c n (Nat.lt_of_succ_lt hn)

/-- At a point with ki = 0: the reset case's contents. -/
theorem accAt_reset (c : Dev nD) (t : Fin cfg0.N) (h0 : t.val % 4 = 0) :
    accAt m c t.val t.isLt = outReset c (grid0.coords t) (ms0 t) (hs0 t) (ms1 t) (hs1 t) (ms2 t) (hs2 t) (ms3 t) (hs3 t) (ms4 t) (hs4 t) (ms5 t) (hs5 t)
      ((hcond1 t).mpr h0) ((hcond2 t).mpr (by omega)) (iblk m c 0 t) (iblk m c 1 t) (iblk m c 2 t) (iblk m c 3 t) (iblk m c 4 t) := by
  obtain ⟨n, hn⟩ := t
  cases n with
  | zero => exact rfl
  | succ n => exact (dif_pos h0).trans rfl

/-- At a point with 0 < ki ≤ qi: the adding case's contents over what the point before left. -/
theorem accAt_add (c : Dev nD) (t : Fin cfg0.N) (h0 : ¬t.val % 4 = 0) (h1 : t.val % 4 ≤ t.val / 4 % 4) :
    accAt m c t.val t.isLt = outAdd c (grid0.coords t) (ms0 t) (hs0 t) (ms1 t) (hs1 t) (ms2 t) (hs2 t) (ms3 t) (hs3 t) (ms4 t) (hs4 t) (ms5 t) (hs5 t)
      (fun h => h0 ((hcond1 t).mp h)) ((hcond2 t).mpr h1) (iblk m c 0 t) (iblk m c 1 t) (iblk m c 2 t) (iblk m c 3 t) (iblk m c 4 t)
      (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- At a point with ki > qi: what the point before left. -/
theorem accAt_skip (c : Dev nD) (t : Fin cfg0.N) (h0 : ¬t.val % 4 = 0) (h1 : ¬t.val % 4 ≤ t.val / 4 % 4) :
    accAt m c t.val t.isLt = accAt m c (t.val - 1) (Nat.lt_of_le_of_lt (Nat.sub_le _ _) t.isLt) := by
  obtain ⟨n, hn⟩ := t
  cases n with
  | zero => exact absurd (Nat.zero_mod _) h0
  | succ n => exact (dif_neg h0).trans ((dif_neg h1).trans rfl)

/-! ## The pipeline's proof data -/

/-- The arrays as the region finds them; after the body at point `t` each input's buffer at its block and the output's
    at `accAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = accAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- The output window is never fetched. -/
theorem fetch5 : ∀ t : Fin cfg0.N, (cfg0.win 5).fetch t = false :=
  (by decide +kernel : ∀ t : Fin grid0.N, win0_5.fetch t = false)

/-- It is written back only after ki = 3. -/
theorem noFlush5 (t : Fin cfg0.N) (h : ¬t.val % 4 = 3) : (cfg0.win 5).flush t = false :=
  Bool.eq_false_iff.mpr fun hf => h ((flush0_5 t).mp hf)

/-- Its blocks tile the array, so what the body left is all of what the next point finds. -/
theorem kept5 (c : Dev nD) (t : Fin cfg0.N) (d) : (dats m 0 c).kept 5 t d = (dats m 0 c).after 5 t := by
  unfold Dat.kept
  rw [Pipeline.fill_of_clip_none 5 _ (fun _ => rfl) d ((dats m 0 c).after 5 t), Window.fill_cut]

/-- Before a point with ki ≠ 0 the output buffer holds what the point before left — through the idle points too. -/
theorem before5 (c : Dev nD) : ∀ (n : ℕ) (hn : n < cfg0.N), ¬n % 4 = 0 → ∀ d,
    (dats m 0 c).before 5 ⟨n, hn⟩ d = accAt m c (n - 1) (Nat.lt_of_le_of_lt (Nat.sub_le _ _) hn)
  | 0, _, h, _ => absurd (Nat.zero_mod _) h
  | k + 1, hn, h, d => by
    have hk : k < cfg0.N := Nat.lt_of_succ_lt hn
    rw [Dat.before_of_pos _ 5 ⟨k + 1, hn⟩ (Nat.succ_ne_zero k) (fetch5 _) d]
    have hfl : (cfg0.win 5).flush ⟨k, hk⟩ = false := noFlush5 ⟨k, hk⟩ (by show ¬k % 4 = 3; omega)
    rw [show (cfg0.win 5).flush ⟨(⟨k + 1, hn⟩ : Fin cfg0.N).val - 1, Nat.lt_of_le_of_lt (Nat.sub_le _ _) (⟨k + 1, hn⟩ : Fin cfg0.N).isLt⟩ = false from hfl,
      if_neg Bool.false_ne_true]
    show (dats m 0 c).left 5 ⟨k, hk⟩ d = accAt m c k hk
    unfold Dat.left
    by_cases h1 : k % 4 ≤ k / 4 % 4
    · rw [live5 ⟨k, hk⟩ h1]
      show (dats m 0 c).kept 5 ⟨k, hk⟩ d = _
      rw [kept5, after5]
    · have h0 : ¬k % 4 = 0 := fun e => h1 (by rw [e]; exact Nat.zero_le _)
      rw [idle5 ⟨k, hk⟩ h0 h1]
      show (dats m 0 c).before 5 ⟨k, hk⟩ d = _
      rw [before5 c k hk h0 d]
      exact (accAt_skip m c ⟨k, hk⟩ h0 h1).symm

theorem before5' (c : Dev nD) (t : Fin cfg0.N) (h0 : ¬t.val % 4 = 0) (d) :
    (dats m 0 c).before 5 t d = accAt m c (t.val - 1) (Nat.lt_of_le_of_lt (Nat.sub_le _ _) t.isLt) :=
  before5 m c t.val t.isLt h0 d

end Cert.Kernel.Hand

end
-- ==== Proof.Kernel.Body.lean ====
/-
  The body obligation at every grid point, the run of @main, and the frame.
  At a point the body is handed each input window's staging buffer at that window's block, and the output window's at
  whatever the pipeline says it holds; by the point's position along the last grid axis one of the three runs applies:
  the reset run (ki = 0), the adding run (0 < ki ≤ qi, the buffer holding what the point before left), or the run that
  touches nothing (ki > qi). Where the window is idle and is not written back the obligation asks for the buffer as it
  was found; where it is written back after an idle point (ki = 3 > qi) it asks for the stated contents, which are what
  was found. The launch theorem for a region followed by host operations then gives the run, and the frame claim is
  read off its post.
-/
import proofs.«104374_j17832704213564_1_alg».proof.Proof.Kernel.Region

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the obligation asks of each window's buffer after the body -/

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (iblk m c 2 t) := by
  unfold Dat.leavesExact; rw [live2 t, after2]
theorem leaves3 (c : Dev nD) (t : Fin cfg0.N) :
    (dats m 0 c).leavesExact 3 t = owns (c : Thread nD τ) (ms3 t) fullShare (iblk m c 3 t) := by
  unfold Dat.leavesExact; rw [live3 t, after3]
theorem leaves4 (c : Dev nD) (t : Fin cfg0.N) :
    (dats m 0 c).leavesExact 4 t = owns (c : Thread nD τ) (ms4 t) fullShare (iblk m c 4 t) := by
  unfold Dat.leavesExact; rw [live4 t, after4]

/-- Where the tile is added the output window is live: its buffer at the stated contents. -/
theorem leaves5_live (c : Dev nD) (t : Fin cfg0.N) (h1 : t.val % 4 ≤ t.val / 4 % 4) :
    (dats m 0 c).leavesExact 5 t = owns (c : Thread nD τ) (ms5 t) fullShare (accAt m c t.val t.isLt) := by
  unfold Dat.leavesExact; rw [live5 t h1, after5]

/-- Where the block is written back the stated contents are asked for, idle or not. -/
theorem leaves5_flush (c : Dev nD) (t : Fin cfg0.N) (h3 : t.val % 4 = 3) :
    (dats m 0 c).leavesExact 5 t = owns (c : Thread nD τ) (ms5 t) fullShare (accAt m c t.val t.isLt) := by
  unfold Dat.leavesExact; rw [(flush0_5 t).mpr h3, after5]
  cases cfg0.idle 5 (cfg0.grid.coords t) <;> rfl

/-- Where nothing is stored and nothing written back: the buffer as found. -/
theorem leaves5_idle (c : Dev nD) (t : Fin cfg0.N) (h0 : ¬t.val % 4 = 0) (h1 : ¬t.val % 4 ≤ t.val / 4 % 4) (h3 : ¬t.val % 4 = 3) :
    (dats m 0 c).leavesExact 5 t = iprop(∃ d, owns (c : Thread nD τ) (ms5 t) fullShare ((dats m 0 c).before 5 t d)) :=
  Dat.leavesExact_idle (dats m 0 c) 5 t (idle5 t h0 h1) (noFlush5 t h3)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    leaves0, leaves1, leaves2, leaves3, leaves4]
  by_cases h0 : t.val % 4 = 0
  · have h1 : t.val % 4 ≤ t.val / 4 % 4 := by omega
    rw [leaves5_live m c t h1, accAt_reset m c t h0]
    unfold outReset
    iintro ⟨HΦ, Ho, ⟨%d0, H0⟩, ⟨%d1, H1⟩, ⟨%d2, H2⟩, ⟨%d3, H3⟩, ⟨%d4, H4⟩, ⟨%d5, H5⟩⟩
    iapply ((runReset c (grid0.coords t) _ _ _ _ _ _ _ _ _ _ _ _ ((hcond1 t).mpr h0) ((hcond2 t).mpr h1) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverReset c _ _ _ _ _ _ _ _ _ _ _ _ _ _ _ _ _ _ _ _)
  · by_cases h1 : t.val % 4 ≤ t.val / 4 % 4
    · rw [leaves5_live m c t h1, accAt_add m c t h0 h1]
      simp only [before5' m c t h0]
      unfold outAdd
      iintro ⟨HΦ, Ho, ⟨%d0, H0⟩, ⟨%d1, H1⟩, ⟨%d2, H2⟩, ⟨%d3, H3⟩, ⟨%d4, H4⟩, ⟨%d5, H5⟩⟩
      iapply ((runAdd c (grid0.coords t) _ _ _ _ _ _ _ _ _ _ _ _ (fun h => h0 ((hcond1 t).mp h)) ((hcond2 t).mpr h1) (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverAdd c _ _ _ _ _ _ _ _ _ _ _ _ _ _ _ _ _ _ _ _ _)
    · by_cases h3 : t.val % 4 = 3
      · rw [leaves5_flush m c t h3, accAt_skip m c t h0 h1]
        simp only [before5' m c t h0]
        iintro ⟨HΦ, Ho, ⟨%d0, H0⟩, ⟨%d1, H1⟩, ⟨%d2, H2⟩, ⟨%d3, H3⟩, ⟨%d4, H4⟩, ⟨%d5, H5⟩⟩
        iapply (runSkip c (grid0.coords t) _ _ _ _ _ _ _ _ _ _ _ _ (fun h => h0 ((hcond1 t).mp h)) (fun h => h1 ((hcond2 t).mp h)) Set.univ _)
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        iexact H5
      · rw [leaves5_idle m c t h0 h1 h3]
        iintro ⟨HΦ, Ho, ⟨%d0, H0⟩, ⟨%d1, H1⟩, ⟨%d2, H2⟩, ⟨%d3, H3⟩, ⟨%d4, H4⟩, ⟨%d5, H5⟩⟩
        iapply (runSkip c (grid0.coords t) _ _ _ _ _ _ _ _ _ _ _ _ (fun h => h0 ((hcond1 t).mp h)) (fun h => h1 ((hcond2 t).mp h)) Set.univ _)
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    write-backs make of it and every other unscoped buffer as the operation after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KernelIdeal.Cases.lean ====
/-
  The grid of the one pallas_call is 32 x 4 x 4: a point t is (bh, qi, ki) with t = 16 bh + 4 qi + ki, so
  ki = t % 4 and qi = (t / 4) % 4. The body has two conditionals on the coordinates: the output block is
  reset where ki = 0, and a tile's product is added where the tile meets the causal triangle, ki * 512 < (qi + 1) * 512,
  that is ki <= qi. Both are decided here once over the 512 points, with where the output window is idle
  (neither branch stores) and the names of the staging buffers the body is called with.
-/
import proofs.«104374_j17832704213564_1_alg».proof.Proof.Gen.KernelIdeal.Frame
import proofs.«104374_j17832704213564_1_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The reset branch is taken exactly where the last grid coordinate is 0. -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)

/-- The accumulating branch is taken exactly where the key tile is not past the query tile: ki ≤ qi. -/
theorem hcond2 : ∀ t : Fin cfg0.N, k0_cond2 (grid0.coords t) = 1#1 ↔ t.val % 4 ≤ t.val / 4 % 4 :=
  (by decide +kernel : ∀ t : Fin grid0.N, k0_cond2 (grid0.coords t) = 1#1 ↔ t.val % 4 ≤ t.val / 4 % 4)

/-- The input windows are never idle. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl

/-- Where the accumulating branch is taken the output window is live. -/
theorem live5 : ∀ t : Fin cfg0.N, t.val % 4 ≤ t.val / 4 % 4 → cfg0.idle 5 (grid0.coords t) = false :=
  (by decide +kernel : ∀ t : Fin grid0.N, t.val % 4 ≤ t.val / 4 % 4 → idle0 5 (grid0.coords t) = false)

/-- Where neither branch is taken the output window is idle. -/
theorem idle5 : ∀ t : Fin cfg0.N, ¬t.val % 4 = 0 → ¬t.val % 4 ≤ t.val / 4 % 4 → cfg0.idle 5 (grid0.coords t) = true :=
  (by decide +kernel : ∀ t : Fin grid0.N, ¬t.val % 4 = 0 → ¬t.val % 4 ≤ t.val / 4 % 4 → idle0 5 (grid0.coords t) = true)

/-- Each window's current staging memref at point `t`, as the pipeline passes it to the body, and its wholeness. -/
abbrev ms0 (t : Fin cfg0.N) : Memref sig .tc .vmem S1x512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x128 .f32 := win0_5.stage (cfg0.slots t 5)
abbrev hs5 (t : Fin cfg0.N) : (ms5 t).IsWhole := hstage0_5 ((cfg0.slots t 5).cast nbuf0_5)

/-- One staging buffer of the output window, as a view: the block's contents are stated through it. -/
abbrev VO : View sig .tc .vmem S1x512x128 .f32 := (Memref.whole cc0_stg5_0 : Memref sig .tc .vmem S1x512x128 .f32).view

end Cert.KernelIdeal.Hand

end
-- ==== Proof.KernelIdeal.RunAdd.lean ====
/-
  The kernel body run once on whole staging buffers where the output block is NOT reset and the tile's product IS added (0 < ki ≤ qi): the output buffer is read (at its running contents) before it is stored whole.
  The result is a pair: the list of pieces the body's stores leave in the output buffer, and the triple saying that from
  the inputs' buffers at given contents the body runs to a continuation that gets the inputs' buffers back unchanged
  and the output buffer with exactly those pieces written. What the pieces hold as a function of the loads is read
  off them later; nothing of the arithmetic is used here.
-/
import proofs.«104374_j17832704213564_1_alg».proof.Proof.KernelIdeal.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
noncomputable def runAdd (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x512x128 .f32) (harg8 : arg8.IsWhole)
    (hc1 : ¬k0_cond1 i = 1#1) (hc2 : k0_cond2 i = 1#1) (x0 x1 x2 : Vec F S1x512x128 .f32) (x3 : Vec F S1x512x1 .f32) (x4 : Vec F S1x1x512 .f32) (xo : Vec F S1x512x128 .f32) :
    { L : List (View.Piece (Elt F) S1x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L)) -∗ K ⟨⟩))
          ⊢ wp frame (wpE (defs₀ (F := F)) Variants.none c none) E (cc0__rbf_causal_kernel i arg3 harg3 arg4 harg4 arg5 harg5 arg6 harg6 arg7 harg7 arg8 harg8) K } := by
  refine ⟨?_, fun E K => ?run⟩
  case run =>
    simp only [cc0__rbf_causal_kernel_eq_skeleton]; unfold cc0__rbf_causal_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

end Cert.KernelIdeal.Hand

end
-- ==== Proof.KernelIdeal.RunReset.lean ====
/-
  The kernel body run once on whole staging buffers where the output block IS reset and the tile's product IS added (ki = 0): the output buffer is stored whole, read back, and stored whole again; what it held before does not matter.
  The result is a pair: the list of pieces the body's stores leave in the output buffer, and the triple saying that from
  the inputs' buffers at given contents the body runs to a continuation that gets the inputs' buffers back unchanged
  and the output buffer with exactly those pieces written. What the pieces hold as a function of the loads is read
  off them later; nothing of the arithmetic is used here.
-/
import proofs.«104374_j17832704213564_1_alg».proof.Proof.KernelIdeal.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
noncomputable def runReset (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x512x128 .f32) (harg8 : arg8.IsWhole)
    (hc1 : k0_cond1 i = 1#1) (hc2 : k0_cond2 i = 1#1) (x0 x1 x2 : Vec F S1x512x128 .f32) (x3 : Vec F S1x512x1 .f32) (x4 : Vec F S1x1x512 .f32) :
    { L : List (View.Piece (Elt F) S1x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L)) -∗ K ⟨⟩))
          ⊢ wp frame (wpE (defs₀ (F := F)) Variants.none c none) E (cc0__rbf_causal_kernel i arg3 harg3 arg4 harg4 arg5 harg5 arg6 harg6 arg7 harg7 arg8 harg8) K } := by
  refine ⟨?_, fun E K => ?run⟩
  case run =>
    simp only [cc0__rbf_causal_kernel_eq_skeleton]; unfold cc0__rbf_causal_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

end Cert.KernelIdeal.Hand

end
-- ==== Proof.KernelIdeal.RunSkip.lean ====
/-
  The kernel body run once on whole staging buffers where neither branch is taken (ki > qi): the body touches no buffer, so whatever the continuation needs is handed to it as it stands.
  The result is a pair: the list of pieces the body's stores leave in the output buffer, and the triple saying that from
  the inputs' buffers at given contents the body runs to a continuation that gets the inputs' buffers back unchanged
  and the output buffer with exactly those pieces written. What the pieces hold as a function of the loads is read
  off them later; nothing of the arithmetic is used here.
-/
import proofs.«104374_j17832704213564_1_alg».proof.Proof.KernelIdeal.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
theorem runSkip (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x512x128 .f32) (harg8 : arg8.IsWhole)
    (hc1 : ¬k0_cond1 i = 1#1) (hc2 : ¬k0_cond2 i = 1#1) (E : Set ℕ) (K : PUnit → sProp 𝕄) :
    K ⟨⟩ ⊢ wp frame (wpE (defs₀ (F := F)) Variants.none c none) E (cc0__rbf_causal_kernel i arg3 harg3 arg4 harg4 arg5 harg5 arg6 harg6 arg7 harg7 arg8 harg8) K := by
  simp only [cc0__rbf_causal_kernel_eq_skeleton]; unfold cc0__rbf_causal_kernel_skel
  simp only [k0_part1_eq_skeleton]
  iintro Hk
  sl_exec (disch := first | exact hc1 | exact hc2)
  sl_step
  iexact Hk

end Cert.KernelIdeal.Hand

end
-- ==== Proof.KernelIdeal.Region.lean ====
/-
  The frame of the one pallas_call and the contents of its output window, point by point.
  The output block of a query tile stays in its staging buffer along the last grid axis ki = 0, 1, 2, 3 and is
  written back after ki = 3. At ki = 0 the body stores zero and then zero plus the tile's product; at 0 < ki ≤ qi it
  stores what it finds plus the tile's product; at ki > qi it stores nothing. So what the buffer holds after point t,
  `accAt t`, is defined by recursion on t: the reset case's result, the adding case's result over `accAt (t - 1)`, or
  `accAt (t - 1)` itself. The pipeline's own account of what the buffer holds BEFORE point t looks back through the
  points at which the window is idle; it agrees with `accAt (t - 1)` wherever ki ≠ 0 (`before5`). With that the body's
  three runs discharge the body obligation at every point, and the library's launch theorem gives the run of @main:
  it terminates, faults nowhere, and ends with every array of the pipeline at what the write-backs of these
  contents make of it, the argument arrays untouched.
-/
import proofs.«104374_j17832704213564_1_alg».proof.Proof.KernelIdeal.RunAdd
import proofs.«104374_j17832704213564_1_alg».proof.Proof.KernelIdeal.RunReset
import proofs.«104374_j17832704213564_1_alg».proof.Proof.KernelIdeal.RunSkip

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each case leaves in the output buffer -/

/-- The reset case's two whole-block stores cover the block. -/
theorem coverReset (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x512x128 .f32) (harg8 : arg8.IsWhole)
    (hc1 : k0_cond1 i = 1#1) (hc2 : k0_cond2 i = 1#1) (x0 x1 x2 : Vec F S1x512x128 .f32) (x3 : Vec F S1x512x1 .f32) (x4 : Vec F S1x1x512 .f32) (y : S1x512x128.Idx) :
    ∃ pc ∈ (runReset c i arg3 harg3 arg4 harg4 arg5 harg5 arg6 harg6 arg7 harg7 arg8 harg8 hc1 hc2 x0 x1 x2 x3 x4).1, y ∈ pc.1.set :=
  View.cover_of_tiledL (runReset c i arg3 harg3 arg4 harg4 arg5 harg5 arg6 harg6 arg7 harg7 arg8 harg8 hc1 hc2 x0 x1 x2 x3 x4).1 S1x512x128.size (by sl_kernel_rfl) y

/-- What the reset case leaves: its pieces read back. -/
def outReset (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x512x128 .f32) (harg8 : arg8.IsWhole)
    (hc1 : k0_cond1 i = 1#1) (hc2 : k0_cond2 i = 1#1) (x0 x1 x2 : Vec F S1x512x128 .f32) (x3 : Vec F S1x512x1 .f32) (x4 : Vec F S1x1x512 .f32) : Vec F S1x512x128 .f32 :=
  VO.read (Elt F) (VO.writes (Elt F) VO.junk (runReset c i arg3 harg3 arg4 harg4 arg5 harg5 arg6 harg6 arg7 harg7 arg8 harg8 hc1 hc2 x0 x1 x2 x3 x4).1)

/-- The adding case's one whole-block store covers the block. -/
theorem coverAdd (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x512x128 .f32) (harg8 : arg8.IsWhole)
    (hc1 : ¬k0_cond1 i = 1#1) (hc2 : k0_cond2 i = 1#1) (x0 x1 x2 : Vec F S1x512x128 .f32) (x3 : Vec F S1x512x1 .f32) (x4 : Vec F S1x1x512 .f32) (xo : Vec F S1x512x128 .f32) (y : S1x512x128.Idx) :
    ∃ pc ∈ (runAdd c i arg3 harg3 arg4 harg4 arg5 harg5 arg6 harg6 arg7 harg7 arg8 harg8 hc1 hc2 x0 x1 x2 x3 x4 xo).1, y ∈ pc.1.set :=
  View.cover_of_tiledL (runAdd c i arg3 harg3 arg4 harg4 arg5 harg5 arg6 harg6 arg7 harg7 arg8 harg8 hc1 hc2 x0 x1 x2 x3 x4 xo).1 S1x512x128.size (by sl_kernel_rfl) y

/-- What the adding case leaves over running contents `xo`: its piece read back. -/
def outAdd (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x512x128 .f32) (harg8 : arg8.IsWhole)
    (hc1 : ¬k0_cond1 i = 1#1) (hc2 : k0_cond2 i = 1#1) (x0 x1 x2 : Vec F S1x512x128 .f32) (x3 : Vec F S1x512x1 .f32) (x4 : Vec F S1x1x512 .f32) (xo : Vec F S1x512x128 .f32) : Vec F S1x512x128 .f32 :=
  VO.read (Elt F) (VO.writes (Elt F) VO.junk (runAdd c i arg3 harg3 arg4 harg4 arg5 harg5 arg6 harg6 arg7 harg7 arg8 harg8 hc1 hc2 x0 x1 x2 x3 x4 xo).1)

/-! ## The output buffer after each point -/

theorem le_at_zero : (0 : ℕ) % 4 ≤ 0 / 4 % 4 := by decide

/-- What the output window's staging buffer holds after the body at position `n`. -/
def accAt (c : Dev nD) : (n : ℕ) → n < cfg0.N → Vec F S1x512x128 .f32
  | 0, hn => outReset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩)
      ((hcond1 ⟨0, hn⟩).mpr (Nat.zero_mod _)) ((hcond2 ⟨0, hn⟩).mpr le_at_zero) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 4 = 0 then
      outReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩)
        ((hcond1 ⟨n + 1, hn⟩).mpr h0) ((hcond2 ⟨n + 1, hn⟩).mpr (show (n + 1) % 4 ≤ (n + 1) / 4 % 4 by omega)) (iblk m c 0 ⟨n + 1, hn⟩) (iblk m c 1 ⟨n + 1, hn⟩) (iblk m c 2 ⟨n + 1, hn⟩) (iblk m c 3 ⟨n + 1, hn⟩) (iblk m c 4 ⟨n + 1, hn⟩)
    else if h1 : (n + 1) % 4 ≤ (n + 1) / 4 % 4 then
      outAdd c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩)
        (fun h => h0 ((hcond1 ⟨n + 1, hn⟩).mp h)) ((hcond2 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩)
        (accAt c n (Nat.lt_of_succ_lt hn))
    else accAt c n (Nat.lt_of_succ_lt hn)

/-- At a point with ki = 0: the reset case's contents. -/
theorem accAt_reset (c : Dev nD) (t : Fin cfg0.N) (h0 : t.val % 4 = 0) :
    accAt m c t.val t.isLt = outReset c (grid0.coords t) (ms0 t) (hs0 t) (ms1 t) (hs1 t) (ms2 t) (hs2 t) (ms3 t) (hs3 t) (ms4 t) (hs4 t) (ms5 t) (hs5 t)
      ((hcond1 t).mpr h0) ((hcond2 t).mpr (by omega)) (iblk m c 0 t) (iblk m c 1 t) (iblk m c 2 t) (iblk m c 3 t) (iblk m c 4 t) := by
  obtain ⟨n, hn⟩ := t
  cases n with
  | zero => exact rfl
  | succ n => exact (dif_pos h0).trans rfl

/-- At a point with 0 < ki ≤ qi: the adding case's contents over what the point before left. -/
theorem accAt_add (c : Dev nD) (t : Fin cfg0.N) (h0 : ¬t.val % 4 = 0) (h1 : t.val % 4 ≤ t.val / 4 % 4) :
    accAt m c t.val t.isLt = outAdd c (grid0.coords t) (ms0 t) (hs0 t) (ms1 t) (hs1 t) (ms2 t) (hs2 t) (ms3 t) (hs3 t) (ms4 t) (hs4 t) (ms5 t) (hs5 t)
      (fun h => h0 ((hcond1 t).mp h)) ((hcond2 t).mpr h1) (iblk m c 0 t) (iblk m c 1 t) (iblk m c 2 t) (iblk m c 3 t) (iblk m c 4 t)
      (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- At a point with ki > qi: what the point before left. -/
theorem accAt_skip (c : Dev nD) (t : Fin cfg0.N) (h0 : ¬t.val % 4 = 0) (h1 : ¬t.val % 4 ≤ t.val / 4 % 4) :
    accAt m c t.val t.isLt = accAt m c (t.val - 1) (Nat.lt_of_le_of_lt (Nat.sub_le _ _) t.isLt) := by
  obtain ⟨n, hn⟩ := t
  cases n with
  | zero => exact absurd (Nat.zero_mod _) h0
  | succ n => exact (dif_neg h0).trans ((dif_neg h1).trans rfl)

/-! ## The pipeline's proof data -/

/-- The arrays as the region finds them; after the body at point `t` each input's buffer at its block and the output's
    at `accAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = accAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- The output window is never fetched. -/
theorem fetch5 : ∀ t : Fin cfg0.N, (cfg0.win 5).fetch t = false :=
  (by decide +kernel : ∀ t : Fin grid0.N, win0_5.fetch t = false)

/-- It is written back only after ki = 3. -/
theorem noFlush5 (t : Fin cfg0.N) (h : ¬t.val % 4 = 3) : (cfg0.win 5).flush t = false :=
  Bool.eq_false_iff.mpr fun hf => h ((flush0_5 t).mp hf)

/-- Its blocks tile the array, so what the body left is all of what the next point finds. -/
theorem kept5 (c : Dev nD) (t : Fin cfg0.N) (d) : (dats m 0 c).kept 5 t d = (dats m 0 c).after 5 t := by
  unfold Dat.kept
  rw [Pipeline.fill_of_clip_none 5 _ (fun _ => rfl) d ((dats m 0 c).after 5 t), Window.fill_cut]

/-- Before a point with ki ≠ 0 the output buffer holds what the point before left — through the idle points too. -/
theorem before5 (c : Dev nD) : ∀ (n : ℕ) (hn : n < cfg0.N), ¬n % 4 = 0 → ∀ d,
    (dats m 0 c).before 5 ⟨n, hn⟩ d = accAt m c (n - 1) (Nat.lt_of_le_of_lt (Nat.sub_le _ _) hn)
  | 0, _, h, _ => absurd (Nat.zero_mod _) h
  | k + 1, hn, h, d => by
    have hk : k < cfg0.N := Nat.lt_of_succ_lt hn
    rw [Dat.before_of_pos _ 5 ⟨k + 1, hn⟩ (Nat.succ_ne_zero k) (fetch5 _) d]
    have hfl : (cfg0.win 5).flush ⟨k, hk⟩ = false := noFlush5 ⟨k, hk⟩ (by show ¬k % 4 = 3; omega)
    rw [show (cfg0.win 5).flush ⟨(⟨k + 1, hn⟩ : Fin cfg0.N).val - 1, Nat.lt_of_le_of_lt (Nat.sub_le _ _) (⟨k + 1, hn⟩ : Fin cfg0.N).isLt⟩ = false from hfl,
      if_neg Bool.false_ne_true]
    show (dats m 0 c).left 5 ⟨k, hk⟩ d = accAt m c k hk
    unfold Dat.left
    by_cases h1 : k % 4 ≤ k / 4 % 4
    · rw [live5 ⟨k, hk⟩ h1]
      show (dats m 0 c).kept 5 ⟨k, hk⟩ d = _
      rw [kept5, after5]
    · have h0 : ¬k % 4 = 0 := fun e => h1 (by rw [e]; exact Nat.zero_le _)
      rw [idle5 ⟨k, hk⟩ h0 h1]
      show (dats m 0 c).before 5 ⟨k, hk⟩ d = _
      rw [before5 c k hk h0 d]
      exact (accAt_skip m c ⟨k, hk⟩ h0 h1).symm

theorem before5' (c : Dev nD) (t : Fin cfg0.N) (h0 : ¬t.val % 4 = 0) (d) :
    (dats m 0 c).before 5 t d = accAt m c (t.val - 1) (Nat.lt_of_le_of_lt (Nat.sub_le _ _) t.isLt) :=
  before5 m c t.val t.isLt h0 d

end Cert.KernelIdeal.Hand

end
-- ==== Proof.KernelIdeal.Body.lean ====
/-
  The body obligation at every grid point, the run of @main, and the frame.
  At a point the body is handed each input window's staging buffer at that window's block, and the output window's at
  whatever the pipeline says it holds; by the point's position along the last grid axis one of the three runs applies:
  the reset run (ki = 0), the adding run (0 < ki ≤ qi, the buffer holding what the point before left), or the run that
  touches nothing (ki > qi). Where the window is idle and is not written back the obligation asks for the buffer as it
  was found; where it is written back after an idle point (ki = 3 > qi) it asks for the stated contents, which are what
  was found. The launch theorem for a region followed by host operations then gives the run, and the frame claim is
  read off its post.
-/
import proofs.«104374_j17832704213564_1_alg».proof.Proof.KernelIdeal.Region

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the obligation asks of each window's buffer after the body -/

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (iblk m c 2 t) := by
  unfold Dat.leavesExact; rw [live2 t, after2]
theorem leaves3 (c : Dev nD) (t : Fin cfg0.N) :
    (dats m 0 c).leavesExact 3 t = owns (c : Thread nD τ) (ms3 t) fullShare (iblk m c 3 t) := by
  unfold Dat.leavesExact; rw [live3 t, after3]
theorem leaves4 (c : Dev nD) (t : Fin cfg0.N) :
    (dats m 0 c).leavesExact 4 t = owns (c : Thread nD τ) (ms4 t) fullShare (iblk m c 4 t) := by
  unfold Dat.leavesExact; rw [live4 t, after4]

/-- Where the tile is added the output window is live: its buffer at the stated contents. -/
theorem leaves5_live (c : Dev nD) (t : Fin cfg0.N) (h1 : t.val % 4 ≤ t.val / 4 % 4) :
    (dats m 0 c).leavesExact 5 t = owns (c : Thread nD τ) (ms5 t) fullShare (accAt m c t.val t.isLt) := by
  unfold Dat.leavesExact; rw [live5 t h1, after5]

/-- Where the block is written back the stated contents are asked for, idle or not. -/
theorem leaves5_flush (c : Dev nD) (t : Fin cfg0.N) (h3 : t.val % 4 = 3) :
    (dats m 0 c).leavesExact 5 t = owns (c : Thread nD τ) (ms5 t) fullShare (accAt m c t.val t.isLt) := by
  unfold Dat.leavesExact; rw [(flush0_5 t).mpr h3, after5]
  cases cfg0.idle 5 (cfg0.grid.coords t) <;> rfl

/-- Where nothing is stored and nothing written back: the buffer as found. -/
theorem leaves5_idle (c : Dev nD) (t : Fin cfg0.N) (h0 : ¬t.val % 4 = 0) (h1 : ¬t.val % 4 ≤ t.val / 4 % 4) (h3 : ¬t.val % 4 = 3) :
    (dats m 0 c).leavesExact 5 t = iprop(∃ d, owns (c : Thread nD τ) (ms5 t) fullShare ((dats m 0 c).before 5 t d)) :=
  Dat.leavesExact_idle (dats m 0 c) 5 t (idle5 t h0 h1) (noFlush5 t h3)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    leaves0, leaves1, leaves2, leaves3, leaves4]
  by_cases h0 : t.val % 4 = 0
  · have h1 : t.val % 4 ≤ t.val / 4 % 4 := by omega
    rw [leaves5_live m c t h1, accAt_reset m c t h0]
    unfold outReset
    iintro ⟨HΦ, Ho, ⟨%d0, H0⟩, ⟨%d1, H1⟩, ⟨%d2, H2⟩, ⟨%d3, H3⟩, ⟨%d4, H4⟩, ⟨%d5, H5⟩⟩
    iapply ((runReset c (grid0.coords t) _ _ _ _ _ _ _ _ _ _ _ _ ((hcond1 t).mpr h0) ((hcond2 t).mpr h1) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverReset c _ _ _ _ _ _ _ _ _ _ _ _ _ _ _ _ _ _ _ _)
  · by_cases h1 : t.val % 4 ≤ t.val / 4 % 4
    · rw [leaves5_live m c t h1, accAt_add m c t h0 h1]
      simp only [before5' m c t h0]
      unfold outAdd
      iintro ⟨HΦ, Ho, ⟨%d0, H0⟩, ⟨%d1, H1⟩, ⟨%d2, H2⟩, ⟨%d3, H3⟩, ⟨%d4, H4⟩, ⟨%d5, H5⟩⟩
      iapply ((runAdd c (grid0.coords t) _ _ _ _ _ _ _ _ _ _ _ _ (fun h => h0 ((hcond1 t).mp h)) ((hcond2 t).mpr h1) (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverAdd c _ _ _ _ _ _ _ _ _ _ _ _ _ _ _ _ _ _ _ _ _)
    · by_cases h3 : t.val % 4 = 3
      · rw [leaves5_flush m c t h3, accAt_skip m c t h0 h1]
        simp only [before5' m c t h0]
        iintro ⟨HΦ, Ho, ⟨%d0, H0⟩, ⟨%d1, H1⟩, ⟨%d2, H2⟩, ⟨%d3, H3⟩, ⟨%d4, H4⟩, ⟨%d5, H5⟩⟩
        iapply (runSkip c (grid0.coords t) _ _ _ _ _ _ _ _ _ _ _ _ (fun h => h0 ((hcond1 t).mp h)) (fun h => h1 ((hcond2 t).mp h)) Set.univ _)
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        iexact H5
      · rw [leaves5_idle m c t h0 h1 h3]
        iintro ⟨HΦ, Ho, ⟨%d0, H0⟩, ⟨%d1, H1⟩, ⟨%d2, H2⟩, ⟨%d3, H3⟩, ⟨%d4, H4⟩, ⟨%d5, H5⟩⟩
        iapply (runSkip c (grid0.coords t) _ _ _ _ _ _ _ _ _ _ _ _ (fun h => h0 ((hcond1 t).mp h)) (fun h => h1 ((hcond2 t).mp h)) Set.univ _)
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    write-backs make of it and every other unscoped buffer as the operation after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KernelIdeal.Pieces.lean ====
/-
  What the two storing cases leave in the output buffer, as the body's arithmetic: with T the tile's product (the
  skeleton's third payload, of the point's tile numbers and the five input blocks) and + the skeleton's second payload,
  the adding case leaves xo + T over running contents xo, and the reset case leaves Z + T where Z is the zero block it
  has just stored (the skeleton's first payload), read back.
-/
import proofs.«104374_j17832704213564_1_alg».proof.Proof.KernelIdeal.Region
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz3 : (![0, 0, 0] : Fin 3 → Nat) = fun _ => 0 := funext fun a => by fin_cases a <;> rfl

/-- The adding case: its one covering store's payload, whose loads read the whole buffers. -/
theorem outAdd_eq (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x512x128 .f32) (harg8 : arg8.IsWhole)
    (hc1 : ¬k0_cond1 i = 1#1) (hc2 : k0_cond2 i = 1#1) (x0 x1 x2 : Vec F S1x512x128 .f32) (x3 : Vec F S1x512x1 .f32) (x4 : Vec F S1x1x512 .f32) (xo : Vec F S1x512x128 .f32) :
    outAdd c i arg3 harg3 arg4 harg4 arg5 harg5 arg6 harg6 arg7 harg7 arg8 harg8 hc1 hc2 x0 x1 x2 x3 x4 xo
      = k0_pay2 (k0_pay3 (BitVec.ofNat 32 (i 1).val) (BitVec.ofNat 32 (i 2).val) x0 x1 x2 x3 x4) xo := by
  unfold outAdd
  rw [View.read_writes_eq_canon _ _ _ (coverAdd c i arg3 harg3 arg4 harg4 arg5 harg5 arg6 harg6 arg7 harg7 arg8 harg8 hc1 hc2 x0 x1 x2 x3 x4 xo)]
  unfold runAdd
  dsimp only
  sl_unfold_words
  rw [View.canon_unit_zero hz3]
  simp only [View.readAt_eq_ld, harg3.read_unread, harg4.read_unread, harg5.read_unread, harg6.read_unread, harg7.read_unread,
    harg8.read_unread, View.ld_unit_zero (S := S1x512x128) hz3, View.ld_unit_zero (S := S1x512x1) hz3,
    View.ld_unit_zero (S := S1x1x512) hz3]

/-- The reset case: the zero block stored, read back, and the tile's product added to it. -/
theorem outReset_eq (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x512x128 .f32) (harg8 : arg8.IsWhole)
    (hc1 : k0_cond1 i = 1#1) (hc2 : k0_cond2 i = 1#1) (x0 x1 x2 : Vec F S1x512x128 .f32) (x3 : Vec F S1x512x1 .f32) (x4 : Vec F S1x1x512 .f32) :
    outReset c i arg3 harg3 arg4 harg4 arg5 harg5 arg6 harg6 arg7 harg7 arg8 harg8 hc1 hc2 x0 x1 x2 x3 x4
      = k0_pay2 (k0_pay3 (BitVec.ofNat 32 (i 1).val) (BitVec.ofNat 32 (i 2).val) x0 x1 x2 x3 x4) (k0_pay1 (F := F)) := by
  unfold outReset
  rw [View.read_writes_eq_canon _ _ _ (coverReset c i arg3 harg3 arg4 harg4 arg5 harg5 arg6 harg6 arg7 harg7 arg8 harg8 hc1 hc2 x0 x1 x2 x3 x4)]
  unfold runReset
  dsimp only
  sl_unfold_words
  rw [View.canon_cons_unit_zero (S := S1x512x128) hz3, View.readCov_unit_zero (S := S1x512x128) _ hz3]
  simp only [View.readAt_eq_ld, harg3.read_unread, harg4.read_unread, harg5.read_unread, harg6.read_unread, harg7.read_unread,
    View.ld_unit_zero (S := S1x512x128) hz3, View.ld_unit_zero (S := S1x512x1) hz3,
    View.ld_unit_zero (S := S1x1x512) hz3, View.readCov_unit_zero (S := S1x512x128) _ hz3]

end Cert.KernelIdeal.Hand

end
-- ==== Proof.Spec.lean ====
/-
  What both programs compute, as one function of the three argument arrays q, k, v : [2, 16, 2048, 128] over the
  extended reals. With s the binary value of the f32 word nearest 1/√128 and 2s its double (also an f32 word),

      sqn x b h r      = s · Σ_e x[b,h,r,e]²
      logit b h r n    = 2s · Σ_e q[b,h,r,e] · k[b,h,n,e]  −  sqn q b h r  −  sqn k b h n
      weight b h r n   = exp (logit b h r n)   if n ≤ r (the causal triangle),   0 otherwise
      out[b,h,r,d]     = Σ_{n < 2048} weight b h r n · v[b,h,n,d].

  A masked logit is −∞ in both programs and exp (−∞) = 0, so the weight outside the triangle is 0, and 0 · x = 0 for
  every extended real x: the terms past the diagonal vanish whatever v holds. The sum over n may therefore be cut at
  any multiple of 512 past the query row, and taken 512 keys at a time, which is how the tiled program takes it; the
  extended reals are a commutative monoid under +, so no regrouping needs finiteness.
-/
import Idealize.ShloMosaic.PureOps.Ideal
import Idealize.ShloMosaic.Lib.ValueIdx
import Mathlib.Algebra.BigOperators.Fin
import Mathlib.Algebra.BigOperators.Intervals

noncomputable section

open scoped BigOperators

namespace Cert.Spec

open Idealize.ShloMosaic Idealize.ShloMosaic.ValueIdx

/-- The shape of q, k, v and of the result. -/
abbrev SQ : Shape := ⟨4, ![2, 16, 2048, 128]⟩

/-- The scale: the value of the f32 word `0x3DB504F3` (the float nearest 1/√128). -/
abbrev sc : EReal := Ideal.ofBits .f32 0x3DB504F3#32
/-- Its double, the value of the f32 word `0x3E3504F3` (same mantissa, exponent one higher). -/
abbrev sc2 : EReal := Ideal.ofBits .f32 0x3E3504F3#32

/-- The weight of a key for a query from their dot product and the two scaled squared norms: inside the triangle the
    exponential of the logit, outside it 0. -/
def wt (vis : Prop) [Decidable vis] (dot qs ks : EReal) : EReal := if vis then Ideal.exp (sc2 * dot - qs - ks) else 0

/-- Outside the triangle a weight is the exponential of −∞. -/
theorem wt_eq_exp_ite (vis : Prop) [Decidable vis] (dot qs ks : EReal) :
    wt vis dot qs ks = Ideal.exp (if vis then sc2 * dot - qs - ks else ⊥) := by
  unfold wt; split <;> simp

/-- The scaled squared norm of row (b, h, r). -/
def sqn (x : SQ.Idx → EReal) (b : Fin 2) (h : Fin 16) (r : Fin 2048) : EReal :=
  sc * ∑ e : Fin 128, x (ix4 b h r e) * x (ix4 b h r e)

/-- The dot product of query row r and key row n of head (b, h). -/
def qk (q k : SQ.Idx → EReal) (b : Fin 2) (h : Fin 16) (r n : Fin 2048) : EReal :=
  ∑ e : Fin 128, q (ix4 b h r e) * k (ix4 b h n e)

/-- Key n's contribution to out[b, h, r, d]. -/
def term (q k v : SQ.Idx → EReal) (b : Fin 2) (h : Fin 16) (r : Fin 2048) (d : Fin 128) (n : Fin 2048) : EReal :=
  wt (n.val ≤ r.val) (qk q k b h r n) (sqn q b h r) (sqn k b h n) * v (ix4 b h n d)

/-- out[b, h, r, d]. -/
def attnAt (q k v : SQ.Idx → EReal) (b : Fin 2) (h : Fin 16) (r : Fin 2048) (d : Fin 128) : EReal :=
  ∑ n : Fin 2048, term q k v b h r d n

/-- The result array. -/
def attn (q k v : SQ.Idx → EReal) : SQ.Idx → EReal := fun i =>
  attnAt q k v ⟨(i 0).val, (i 0).isLt⟩ ⟨(i 1).val, (i 1).isLt⟩ ⟨(i 2).val, (i 2).isLt⟩ ⟨(i 3).val, (i 3).isLt⟩

/-- The sum cut at the first M keys. -/
def attnPart (q k v : SQ.Idx → EReal) (b : Fin 2) (h : Fin 16) (r : Fin 2048) (d : Fin 128) (M : ℕ) : EReal :=
  ∑ n : Fin 2048, if n.val < M then term q k v b h r d n else 0

/-- A key past the query row contributes nothing. -/
theorem term_eq_zero (q k v : SQ.Idx → EReal) (b : Fin 2) (h : Fin 16) (r : Fin 2048) (d : Fin 128) (n : Fin 2048)
    (hn : r.val < n.val) : term q k v b h r d n = 0 := by
  unfold term wt
  rw [if_neg (Nat.not_le.mpr hn), zero_mul]

theorem attnPart_zero (q k v : SQ.Idx → EReal) (b : Fin 2) (h : Fin 16) (r : Fin 2048) (d : Fin 128) :
    attnPart q k v b h r d 0 = 0 := by
  unfold attnPart
  simp

/-- Cutting a sum over 2048 keys at K + 512 instead of K adds the 512 keys K, …, K + 511: the indicator of
    n < K + 512 is the indicator of n < K plus that of K ≤ n < K + 512, and j ↦ K + j is a bijection from the 512
    offsets onto that block. -/
private theorem sum_cut_succ (f : Fin 2048 → EReal) (K : ℕ) (hK : K + 512 ≤ 2048) :
    (∑ n : Fin 2048, if n.val < K + 512 then f n else 0)
      = (∑ n : Fin 2048, if n.val < K then f n else 0)
        + ∑ j : Fin 512, f ⟨K + j.val, by have := j.isLt; omega⟩ := by
  have hsplit : ∀ n : Fin 2048, (if n.val < K + 512 then f n else 0)
      = (if n.val < K then f n else 0) + (if K ≤ n.val ∧ n.val < K + 512 then f n else 0) := by
    intro n
    by_cases h1 : n.val < K
    · have h3 : ¬ (K ≤ n.val ∧ n.val < K + 512) := by omega
      rw [if_pos (by omega), if_pos h1, if_neg h3, add_zero]
    · by_cases h2 : n.val < K + 512
      · rw [if_pos h2, if_neg h1, if_pos ⟨by omega, h2⟩, zero_add]
      · have h3 : ¬ (K ≤ n.val ∧ n.val < K + 512) := by omega
        rw [if_neg h2, if_neg h1, if_neg h3, add_zero]
  rw [Finset.sum_congr rfl (fun n _ => hsplit n), Finset.sum_add_distrib]
  congr 1
  rw [← Finset.sum_filter]
  symm
  refine Finset.sum_bij (fun (j : Fin 512) _ => (⟨K + j.val, by have := j.isLt; omega⟩ : Fin 2048)) ?_ ?_ ?_ ?_
  · intro j _
    have := j.isLt
    simp only [Finset.mem_filter, Finset.mem_univ, true_and]
    constructor <;> omega
  · intro a _ c _ hac
    have := congrArg Fin.val hac
    simp only at this
    exact Fin.ext (by omega)
  · intro n hn
    simp only [Finset.mem_filter, Finset.mem_univ, true_and] at hn
    refine ⟨⟨n.val - K, by omega⟩, Finset.mem_univ _, ?_⟩
    exact Fin.ext (by simp only; omega)
  · intro j _
    rfl

/-- The next 512 keys. -/
theorem attnPart_tile (q k v : SQ.Idx → EReal) (b : Fin 2) (h : Fin 16) (r : Fin 2048) (d : Fin 128) (ki : Fin 4) :
    attnPart q k v b h r d (ki.val * 512 + 512)
      = attnPart q k v b h r d (ki.val * 512)
        + ∑ j : Fin 512, term q k v b h r d ⟨ki.val * 512 + j.val, by have := ki.isLt; have := j.isLt; omega⟩ := by
  have hK : ki.val * 512 + 512 ≤ 2048 := by have := ki.isLt; omega
  unfold attnPart
  exact sum_cut_succ (term q k v b h r d) (ki.val * 512) hK

/-- Cut anywhere past the query row, the sum is the whole sum. -/
theorem attnPart_past (q k v : SQ.Idx → EReal) (b : Fin 2) (h : Fin 16) (r : Fin 2048) (d : Fin 128) (M : ℕ)
    (hM : r.val < M) : attnPart q k v b h r d M = attnAt q k v b h r d := by
  unfold attnPart attnAt
  refine Finset.sum_congr rfl (fun n _ => ?_)
  by_cases hlt : n.val < M
  · rw [if_pos hlt]
  · rw [if_neg hlt, term_eq_zero q k v b h r d n (by omega)]

end Cert.Spec

end
-- ==== Proof.KernelIdeal.Payload.lean ====
/-
  One tile of the kernel's body read at an index, at the ideal instance.

  The body, at grid point (·, qi, ki), holds a query tile q : [1, 512, 128], a key tile k and a value tile v of the same
  shape, the queries' scaled squared norms as a column [1, 512, 1] and the keys' as a row [1, 1, 512]. It forms the
  512 × 512 matrix of dot products q kᵀ, turns each into a logit 2s · (q · k) − ‖q‖² − ‖k‖², replaces the logits of the
  keys past the query row (global key index ki · 512 + j above global query index qi · 512 + r) by the named constant
  that is −∞ here, exponentiates, and multiplies the 512 × 512 weights into v. A change of float format is the identity
  on extended reals, exp (−∞) = 0, and both products accumulate into the zero splat, so at (r, d) the tile's value is

      Σ_{j < 512} weight(r, j) · v[j, d],     weight(r, j) = exp (logit)  if  ki · 512 + j ≤ qi · 512 + r,  else 0.

  The accumulating store adds that to what the output block held; the resetting store writes the zero splat.
-/
import proofs.«104374_j17832704213564_1_alg».proof.Proof.Gen.KernelIdeal.Skeleton
import proofs.«104374_j17832704213564_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules
import Idealize.ShloMosaic.Lib.StableHlo.Predicate

noncomputable section

open scoped BigOperators

namespace Cert.KernelIdeal.Payload

open Cert.KernelIdeal Cert.KernelIdeal.Gen Idealize.ShloMosaic Idealize.ShloMosaic.ValueIdx

/-! ## The product q kᵀ: operand indices axis by axis, then the product at (r, j) -/

theorem lhs_qk_0 (i : S512x512.Idx) (q : dot_S512x128_S128x512_S512x512_1_0_0_1_n_n.contr.Idx) :
    (dot_S512x128_S128x512_S512x512_1_0_0_1_n_n.lhsIdx i q 0).val = (i 0).val := by
  unfold DotDims.lhsIdx
  rw [dif_neg (show ¬(0 : Fin S512x128.rank) ∈ dot_S512x128_S128x512_S512x512_1_0_0_1_n_n.lhsBatch by decide), dif_pos (show (0 : Fin S512x128.rank) ∈ dot_S512x128_S128x512_S512x512_1_0_0_1_n_n.lhsNonContracting by decide)]
  rfl
theorem lhs_qk_1 (i : S512x512.Idx) (q : dot_S512x128_S128x512_S512x512_1_0_0_1_n_n.contr.Idx) :
    (dot_S512x128_S128x512_S512x512_1_0_0_1_n_n.lhsIdx i q 1).val = (q ⟨0, by decide⟩).val :=
  dot_S512x128_S128x512_S512x512_1_0_0_1_n_n.lhsIdx_val_of_single rfl i q
theorem rhs_qk_0 (i : S512x512.Idx) (q : dot_S512x128_S128x512_S512x512_1_0_0_1_n_n.contr.Idx) :
    (dot_S512x128_S128x512_S512x512_1_0_0_1_n_n.rhsIdx i q 0).val = (q ⟨0, by decide⟩).val :=
  dot_S512x128_S128x512_S512x512_1_0_0_1_n_n.rhsIdx_val_of_single rfl i q
theorem rhs_qk_1 (i : S512x512.Idx) (q : dot_S512x128_S128x512_S512x512_1_0_0_1_n_n.contr.Idx) :
    (dot_S512x128_S128x512_S512x512_1_0_0_1_n_n.rhsIdx i q 1).val = (i 1).val := by
  unfold DotDims.rhsIdx
  rw [dif_neg (show ¬(1 : Fin S128x512.rank) ∈ dot_S512x128_S128x512_S512x512_1_0_0_1_n_n.rhsBatch by decide), dif_pos (show (1 : Fin S128x512.rank) ∈ dot_S512x128_S128x512_S512x512_1_0_0_1_n_n.rhsNonContracting by decide)]
  rfl

/-- A [512, 128] by [128, 512] product into the zero splat, at (r, j): the sum over the 128 shared coordinates. -/
theorem matmul_qk_apply (a : FVec Ideal S512x128 .bf16) (b : FVec Ideal S128x512 .bf16) (r j : Fin 512) :
    matmul dot_S512x128_S128x512_S512x512_1_0_0_1_n_n none a b (constant S512x512 .f32 0x00000000#32) (ix2 r j)
      = ∑ e : Fin 128, a (ix2 r e) * b (ix2 e j) := by
  simp only [matmul]
  rw [Ideal.matmul_constant_zero_apply, ← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  have el : dot_S512x128_S128x512_S512x512_1_0_0_1_n_n.lhsIdx (ix2 r j) ((contrEquiv1 dot_S512x128_S128x512_S512x512_1_0_0_1_n_n 128 rfl rfl).symm k) = ix2 r k := funext fun ax => Fin.ext (by
    match ax with
    | ⟨0, _⟩ => exact lhs_qk_0 _ _
    | ⟨1, _⟩ => exact (lhs_qk_1 _ _).trans hk)
  have er : dot_S512x128_S128x512_S512x512_1_0_0_1_n_n.rhsIdx (ix2 r j) ((contrEquiv1 dot_S512x128_S128x512_S512x512_1_0_0_1_n_n 128 rfl rfl).symm k) = ix2 k j := funext fun ax => Fin.ext (by
    match ax with
    | ⟨0, _⟩ => exact (rhs_qk_0 _ _).trans hk
    | ⟨1, _⟩ => exact rhs_qk_1 _ _)
  rw [el, er]

/-! ## The product of the weights with v: the same, over the 512 keys -/

theorem lhs_pv_0 (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
theorem lhs_pv_1 (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
theorem rhs_pv_0 (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q
theorem rhs_pv_1 (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

/-- A [512, 512] by [512, 128] product into the zero splat, at (r, d): the sum over the 512 keys. -/
theorem matmul_pv_apply (a : FVec Ideal S512x512 .bf16) (b : FVec Ideal S512x128 .bf16) (r : Fin 512) (d : Fin 128) :
    matmul dot_S512x512_S512x128_S512x128_1_0_0_1_n_n none a b (constant S512x128 .f32 0x00000000#32) (ix2 r d)
      = ∑ j : Fin 512, a (ix2 r j) * b (ix2 j d) := by
  simp only [matmul]
  rw [Ideal.matmul_constant_zero_apply, ← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 r d) ((contrEquiv1 dot_S512x512_S512x128_S512x128_1_0_0_1_n_n 512 rfl rfl).symm k) = ix2 r k := funext fun ax => Fin.ext (by
    match ax with
    | ⟨0, _⟩ => exact lhs_pv_0 _ _
    | ⟨1, _⟩ => exact (lhs_pv_1 _ _).trans hk)
  have er : dot_S512x512_S512x128_S512x128_1_0_0_1_n_n.rhsIdx (ix2 r d) ((contrEquiv1 dot_S512x512_S512x128_S512x128_1_0_0_1_n_n 512 rfl rfl).symm k) = ix2 k d := funext fun ax => Fin.ext (by
    match ax with
    | ⟨0, _⟩ => exact (rhs_pv_0 _ _).trans hk
    | ⟨1, _⟩ => exact rhs_pv_1 _ _)
  rw [el, er]

/-! ## The layout operations at explicit coordinates -/

/-- A tile [1, 512, 128] viewed as [512, 128] reads, at (r, e), the tile at (0, r, e). -/
theorem tile_cast_apply (x : Vec Ideal S1x512x128 .f32) (r : Fin 512) (e : Fin 128) :
    shapeCast S512x128 x shapeCasts_S1x512x128_S512x128 (ix2 r e) = x (ix3 (0 : Fin 1) r e) :=
  shapeCast_1ab_ab_apply x _ r e

/-- A matrix [512, 128] stored as a tile [1, 512, 128] reads, at (0, r, d), the matrix at (r, d). -/
theorem tile_uncast_apply (x : FVec Ideal S512x128 .f32) (r : Fin 512) (d : Fin 128) :
    shapeCast S1x512x128 x shapeCasts_S512x128_S1x512x128 (ix3 (0 : Fin 1) r d) = x (ix2 r d) :=
  shapeCast_ab_1ab_apply x _ (0 : Fin 1) r d

/-- The key tile transposed reads, at (e, j), the tile at (j, e). -/
theorem key_transpose_apply (x : FVec Ideal S512x128 .bf16) (e : Fin 128) (j : Fin 512) :
    transpose S128x512 [1, 0] x transposes_S512x128_p1_0_S128x512 (ix2 e j) = x (ix2 j e) :=
  transpose_ix2_apply x _ e j

/-- The queries' norms [1, 512, 1], viewed as a column [512, 1] and spread over the 512 key columns, read at (r, j)
    the norm of query r. -/
theorem query_norm_apply (x : Vec Ideal S1x512x1 .f32) (r j : Fin 512) :
    broadcastTo S512x512 (shapeCast S512x1 x shapeCasts_S1x512x1_S512x1) broadcasts_S512x1_S512x512 (ix2 r j)
      = x (ix3 (0 : Fin 1) r (0 : Fin 1)) := by
  refine (broadcastTo_apply _ broadcasts_S512x1_S512x512 (ix2 r j) (ix2 r (0 : Fin 1)) fun ax => ?_).trans
    (shapeCast_1ab_ab_apply x _ r (0 : Fin 1))
  match ax with
  | ⟨0, _⟩ => rfl
  | ⟨1, _⟩ => rfl

/-- The keys' norms [1, 1, 512], viewed as a row [1, 512] and spread over the 512 query rows, read at (r, j) the norm
    of key j. -/
theorem key_norm_apply (x : Vec Ideal S1x1x512 .f32) (r j : Fin 512) :
    broadcastTo S512x512 (shapeCast S1x512 x shapeCasts_S1x1x512_S1x512) broadcasts_S1x512_S512x512 (ix2 r j)
      = x (ix3 (0 : Fin 1) (0 : Fin 1) j) :=
  (broadcastTo_1b_ab_apply _ broadcasts_S1x512_S512x512 r j).trans (shapeCast_1ab_ab_apply x _ (0 : Fin 1) j)

/-- The dot products: query row r against key row j of the two tiles, over the 128 features. -/
theorem dots_apply (xq xk : Vec Ideal S1x512x128 .f32) (r j : Fin 512) :
    matmul (F := Ideal) dot_S512x128_S128x512_S512x512_1_0_0_1_n_n none
        (truncf (F := Ideal) .bf16 (shapeCast S512x128 xq shapeCasts_S1x512x128_S512x128) bitsLt_bf16_f32)
        (transpose S128x512 [1, 0] (truncf (F := Ideal) .bf16 (shapeCast S512x128 xk shapeCasts_S1x512x128_S512x128) bitsLt_bf16_f32)
          transposes_S512x128_p1_0_S128x512)
        (constant S512x512 .f32 0x00000000#32) (ix2 r j)
      = ∑ e : Fin 128, xq (ix3 (0 : Fin 1) r e) * xk (ix3 (0 : Fin 1) j e) := by
  refine (matmul_qk_apply _ _ r j).trans (Finset.sum_congr rfl fun e _ => ?_)
  exact congrArg₂ (· * ·) (tile_cast_apply xq r e) ((key_transpose_apply _ e j).trans (tile_cast_apply xk j e))

/-! ## The causal mask and the weights -/

/-- A tile number below 4 times 512 plus an offset below 512 is far below 2³¹, so the signed comparison of the two global
    indices as 32-bit words is the comparison of the naturals. -/
theorem mask_iff (qi ki : Fin 4) (r j : Fin 512) :
    IntOp.cmpi .sge (IntOp.addi (Scalar.muli (BitVec.ofNat 32 qi.val) 512#32) (BitVec.ofNat 32 r.val))
        (IntOp.addi (Scalar.muli (BitVec.ofNat 32 ki.val) 512#32) (BitVec.ofNat 32 j.val)) = 1#1
      ↔ ki.val * 512 + j.val ≤ qi.val * 512 + r.val := by
  have hq := qi.isLt
  have hk := ki.isLt
  have hr := r.isLt
  have hj := j.isLt
  have e1 : (IntOp.addi (Scalar.muli (BitVec.ofNat 32 qi.val) 512#32) (BitVec.ofNat 32 r.val)).toNat = qi.val * 512 + r.val := by
    simp only [IntOp.addi, Scalar.muli, IntOp.muli, BitVec.toNat_add, BitVec.toNat_mul, BitVec.toNat_ofNat, Nat.reducePow, Nat.reduceMod]
    omega
  have e2 : (IntOp.addi (Scalar.muli (BitVec.ofNat 32 ki.val) 512#32) (BitVec.ofNat 32 j.val)).toNat = ki.val * 512 + j.val := by
    simp only [IntOp.addi, Scalar.muli, IntOp.muli, BitVec.toNat_add, BitVec.toNat_mul, BitVec.toNat_ofNat, Nat.reducePow, Nat.reduceMod]
    omega
  rw [StableHlo.Predicate.sge_iff_toNat (by rw [e1]; omega) (by rw [e2]; omega), e1, e2]

/-- The masking constant is −∞ at the ideal instance, by the certificate's table of named constants. -/
theorem neg_big_eq : Named.named (F := Ideal) κ "neg_big" (φ := .f32) 0xF149F2CA#32 = ⊥ :=
  IdealRules.named_const.ideal_named_scalar _ _ _ _ rfl

/-- The weight of key j for query r from the three matrices it is made of: the exponential of the logit inside the
    triangle; outside it the exponential of −∞, which is 0. -/
theorem weight_apply (qi ki : Fin 4) (dots qn kn : FVec Ideal S512x512 .f32) (r j : Fin 512) :
    exp (select
        (cmpi .sge
          (addi (broadcast S512x512 (Scalar.muli (BitVec.ofNat 32 qi.val) 512#32)) (iota .tc S512x512 32 [0] iota_S512x512_d0_w32))
          (addi (broadcast S512x512 (Scalar.muli (BitVec.ofNat 32 ki.val) 512#32)) (iota .tc S512x512 32 [1] iota_S512x512_d1_w32)))
        (subf (subf (mulf (broadcast S512x512 (Scalar.ofBits (F := Ideal) .f32 0x3E3504F3#32)) dots) qn) kn)
        (broadcast S512x512 (Named.named (F := Ideal) κ "neg_big" (φ := .f32) 0xF149F2CA#32))) (ix2 r j)
      = Cert.Spec.wt (ki.val * 512 + j.val ≤ qi.val * 512 + r.val) (dots (ix2 r j)) (qn (ix2 r j)) (kn (ix2 r j)) := by
  rw [Cert.Spec.wt_eq_exp_ite]
  show Ideal.exp (Scalar.select
      (IntOp.cmpi .sge
        (IntOp.addi (Scalar.muli (BitVec.ofNat 32 qi.val) 512#32) (iota .tc S512x512 32 [0] iota_S512x512_d0_w32 (ix2 r j)))
        (IntOp.addi (Scalar.muli (BitVec.ofNat 32 ki.val) 512#32) (iota .tc S512x512 32 [1] iota_S512x512_d1_w32 (ix2 r j))))
      (Cert.Spec.sc2 * dots (ix2 r j) - qn (ix2 r j) - kn (ix2 r j))
      (Named.named (F := Ideal) κ "neg_big" (φ := .f32) 0xF149F2CA#32)) = _
  rw [iota_single_apply, iota_single_apply, neg_big_eq]
  unfold Scalar.select
  exact congrArg Ideal.exp (if_congr (mask_iff qi ki r j) rfl rfl)

/-! ## One tile -/

/-- One tile's contribution to out[r, d]: the 512 keys of tile ki against query row r of tile qi. -/
def tileSum (qi ki : Fin 4) (xq xk xv : Vec Ideal S1x512x128 .f32) (xqs : Vec Ideal S1x512x1 .f32)
    (xks : Vec Ideal S1x1x512 .f32) (r : Fin 512) (d : Fin 128) : EReal :=
  ∑ j : Fin 512, Cert.Spec.wt (ki.val * 512 + j.val ≤ qi.val * 512 + r.val)
    (∑ e : Fin 128, xq (ix3 (0 : Fin 1) r e) * xk (ix3 (0 : Fin 1) j e)) (xqs (ix3 (0 : Fin 1) r (0 : Fin 1)))
    (xks (ix3 (0 : Fin 1) (0 : Fin 1) j)) * xv (ix3 (0 : Fin 1) j d)

/-- The value the body computes before it accumulates, at (r, d): the tile's sum. -/
theorem pay3_apply (qi ki : Fin 4) (xq xk xv : Vec Ideal S1x512x128 .f32) (xqs : Vec Ideal S1x512x1 .f32)
    (xks : Vec Ideal S1x1x512 .f32) (r : Fin 512) (d : Fin 128) :
    k0_pay3 (F := Ideal) (BitVec.ofNat 32 qi.val) (BitVec.ofNat 32 ki.val) xq xk xv xqs xks (ix2 r d)
      = tileSum qi ki xq xk xv xqs xks r d := by
  unfold k0_pay3 tileSum
  refine (matmul_pv_apply _ _ r d).trans (Finset.sum_congr rfl fun j _ => ?_)
  refine congrArg₂ (· * ·) ((weight_apply qi ki _ _ _ r j).trans ?_) (tile_cast_apply xv j d)
  rw [dots_apply xq xk r j, query_norm_apply xqs r j, key_norm_apply xks r j]

/-- The reset value is the zero splat. -/
theorem pay1_apply (r : Fin 512) (d : Fin 128) : k0_pay1 (F := Ideal) (ix3 (0 : Fin 1) r d) = 0 := by
  unfold k0_pay1
  refine (tile_uncast_apply _ r d).trans ?_
  exact Ideal.ofBits_zero_f32

/-- The accumulating store's value at (0, r, d): what the output block held there plus the tile's sum. -/
theorem pay2_apply (qi ki : Fin 4) (xq xk xv : Vec Ideal S1x512x128 .f32) (xqs : Vec Ideal S1x512x1 .f32)
    (xks : Vec Ideal S1x1x512 .f32) (prev : Vec Ideal S1x512x128 .f32) (r : Fin 512) (d : Fin 128) :
    k0_pay2 (F := Ideal) (k0_pay3 (BitVec.ofNat 32 qi.val) (BitVec.ofNat 32 ki.val) xq xk xv xqs xks) prev (ix3 (0 : Fin 1) r d)
      = prev (ix3 (0 : Fin 1) r d) + tileSum qi ki xq xk xv xqs xks r d := by
  unfold k0_pay2
  refine (tile_uncast_apply _ r d).trans ((addf_apply _ _ _).trans ?_)
  exact congrArg₂ (· + ·) (tile_cast_apply prev r d) (pay3_apply qi ki xq xk xv xqs xks r d)

end Cert.KernelIdeal.Payload

end
-- ==== Proof.KernelIdeal.Blocks.lean ====
/-
  How the windows of the tiled attention kernel sit in their arrays.

  The grid has 32 × 4 × 4 points; the point t (row-major) is (bh, qi, ki) with bh = t / 16 the batch-and-head,
  qi = t / 4 % 4 the tile of 512 query rows and ki = t % 4 the tile of 512 key rows. Along every axis a block's element
  sits at (block index) × (block size) + (its coordinate inside the block), so:

    * the query tile and the result tile at t hold rows qi · 512 + r of slab bh;
    * the key tile and the value tile at t hold rows ki · 512 + j of slab bh;
    * the query norms' column at t holds the entries qi · 512 + r of slab bh, the key norms' row the entries ki · 512 + j.

  The result window is written back at the last key tile of each (bh, qi), that is at the points t with t % 4 = 3, and
  the 32 × 4 blocks written there tile the result array: the entry (bh, R, d) is in the block of the point
  bh · 16 + (R / 512) · 4 + 3.
-/
import proofs.«104374_j17832704213564_1_alg».proof.Proof.Gen.KernelIdeal.Frame
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.ShloMosaic.ValueIdx

variable {F : FTy → Type} [FloatOps F] [Named F]
variable (m : (ℓ : Loc nD τ sig) → Buf (Elt F) ℓ)

/-! ## The coordinates of a grid point -/

/-- The batch-and-head slab of a grid point. -/
abbrev bhOf (t : Fin cfg0.N) : Fin 32 :=
  ⟨t.val / 16, by have := lt_of_lt_of_eq t.isLt (show cfg0.N = 512 from N_0); omega⟩
/-- Row r of the query tile of a grid point, as a row of the array. -/
abbrev qRow (t : Fin cfg0.N) (r : Fin 512) : Fin 2048 := ⟨t.val / 4 % 4 * 512 + r.val, by omega⟩
/-- Row j of the key tile of a grid point, as a row of the array. -/
abbrev kRow (t : Fin cfg0.N) (j : Fin 512) : Fin 2048 := ⟨t.val % 4 * 512 + j.val, by omega⟩

/-! ## The index maps over the grid -/

/-- The queries' window: block (bh, qi, 0). -/
theorem idx0 : ∀ t : Fin cfg0.N, win0_0.index t (0 : Fin 3) = t.val / 16 ∧ win0_0.index t (1 : Fin 3) = t.val / 4 % 4
    ∧ win0_0.index t (2 : Fin 3) = 0 :=
  (by decide +kernel : ∀ t : Fin grid0.N, _)
/-- The keys' window: block (bh, ki, 0). -/
theorem idx1 : ∀ t : Fin cfg0.N, win0_1.index t (0 : Fin 3) = t.val / 16 ∧ win0_1.index t (1 : Fin 3) = t.val % 4
    ∧ win0_1.index t (2 : Fin 3) = 0 :=
  (by decide +kernel : ∀ t : Fin grid0.N, _)
/-- The values' window: block (bh, ki, 0). -/
theorem idx2 : ∀ t : Fin cfg0.N, win0_2.index t (0 : Fin 3) = t.val / 16 ∧ win0_2.index t (1 : Fin 3) = t.val % 4
    ∧ win0_2.index t (2 : Fin 3) = 0 :=
  (by decide +kernel : ∀ t : Fin grid0.N, _)
/-- The query norms' window: block (bh, qi, 0). -/
theorem idx3 : ∀ t : Fin cfg0.N, win0_3.index t (0 : Fin 3) = t.val / 16 ∧ win0_3.index t (1 : Fin 3) = t.val / 4 % 4
    ∧ win0_3.index t (2 : Fin 3) = 0 :=
  (by decide +kernel : ∀ t : Fin grid0.N, _)
/-- The key norms' window: block (bh, 0, ki). -/
theorem idx4 : ∀ t : Fin cfg0.N, win0_4.index t (0 : Fin 3) = t.val / 16 ∧ win0_4.index t (1 : Fin 3) = 0
    ∧ win0_4.index t (2 : Fin 3) = t.val % 4 :=
  (by decide +kernel : ∀ t : Fin grid0.N, _)
/-- The result's window: block (bh, qi, 0). -/
theorem idx5 : ∀ t : Fin cfg0.N, win0_5.index t (0 : Fin 3) = t.val / 16 ∧ win0_5.index t (1 : Fin 3) = t.val / 4 % 4
    ∧ win0_5.index t (2 : Fin 3) = 0 :=
  (by decide +kernel : ∀ t : Fin grid0.N, _)

/-! ## Each input block read where it sits -/

/-- The query tile at t: rows qi · 512 + r of slab bh. -/
theorem iblk0_apply (c : Dev nD) (t : Fin cfg0.N) (r : Fin 512) (e : Fin 128) :
    iblk m c 0 t (ix3 (0 : Fin 1) r e)
      = (V m c main_v11 : S32x2048x128.Idx → Elt F .f32) (ix3 (bhOf t) (qRow t r) e) := by
  obtain ⟨e0, e1, e2⟩ := idx0 t
  unfold iblk
  rw [View.read_apply]
  show V m c main_v11 (((cfg0.win 0).blk t).view.emb (ix3 (0 : Fin 1) r e)) = V m c main_v11 (ix3 (bhOf t) (qRow t r) e)
  congr 1
  funext a
  apply Fin.ext
  match a with
  | ⟨0, _⟩ => show win0_0.index t (0 : Fin 3) * 1 + 1 * 0 = t.val / 16; omega
  | ⟨1, _⟩ => show win0_0.index t (1 : Fin 3) * 512 + 1 * r.val = t.val / 4 % 4 * 512 + r.val; omega
  | ⟨2, _⟩ => show win0_0.index t (2 : Fin 3) * 128 + 1 * e.val = e.val; omega

/-- The key tile at t: rows ki · 512 + j of slab bh. -/
theorem iblk1_apply (c : Dev nD) (t : Fin cfg0.N) (j : Fin 512) (e : Fin 128) :
    iblk m c 1 t (ix3 (0 : Fin 1) j e)
      = (V m c main_v12 : S32x2048x128.Idx → Elt F .f32) (ix3 (bhOf t) (kRow t j) e) := by
  obtain ⟨e0, e1, e2⟩ := idx1 t
  unfold iblk
  rw [View.read_apply]
  show V m c main_v12 (((cfg0.win 1).blk t).view.emb (ix3 (0 : Fin 1) j e)) = V m c main_v12 (ix3 (bhOf t) (kRow t j) e)
  congr 1
  funext a
  apply Fin.ext
  match a with
  | ⟨0, _⟩ => show win0_1.index t (0 : Fin 3) * 1 + 1 * 0 = t.val / 16; omega
  | ⟨1, _⟩ => show win0_1.index t (1 : Fin 3) * 512 + 1 * j.val = t.val % 4 * 512 + j.val; omega
  | ⟨2, _⟩ => show win0_1.index t (2 : Fin 3) * 128 + 1 * e.val = e.val; omega

/-- The value tile at t: rows ki · 512 + j of slab bh. -/
theorem iblk2_apply (c : Dev nD) (t : Fin cfg0.N) (j : Fin 512) (d : Fin 128) :
    iblk m c 2 t (ix3 (0 : Fin 1) j d)
      = (V m c main_v13 : S32x2048x128.Idx → Elt F .f32) (ix3 (bhOf t) (kRow t j) d) := by
  obtain ⟨e0, e1, e2⟩ := idx2 t
  unfold iblk
  rw [View.read_apply]
  show V m c main_v13 (((cfg0.win 2).blk t).view.emb (ix3 (0 : Fin 1) j d)) = V m c main_v13 (ix3 (bhOf t) (kRow t j) d)
  congr 1
  funext a
  apply Fin.ext
  match a with
  | ⟨0, _⟩ => show win0_2.index t (0 : Fin 3) * 1 + 1 * 0 = t.val / 16; omega
  | ⟨1, _⟩ => show win0_2.index t (1 : Fin 3) * 512 + 1 * j.val = t.val % 4 * 512 + j.val; omega
  | ⟨2, _⟩ => show win0_2.index t (2 : Fin 3) * 128 + 1 * d.val = d.val; omega

/-- The query norms' column at t: entries qi · 512 + r of slab bh. -/
theorem iblk3_apply (c : Dev nD) (t : Fin cfg0.N) (r : Fin 512) :
    iblk m c 3 t (ix3 (0 : Fin 1) r (0 : Fin 1))
      = (V m c main_v14 : S32x2048x1.Idx → Elt F .f32) (ix3 (bhOf t) (qRow t r) (0 : Fin 1)) := by
  obtain ⟨e0, e1, e2⟩ := idx3 t
  unfold iblk
  rw [View.read_apply]
  show V m c main_v14 (((cfg0.win 3).blk t).view.emb (ix3 (0 : Fin 1) r (0 : Fin 1))) = V m c main_v14 (ix3 (bhOf t) (qRow t r) (0 : Fin 1))
  congr 1
  funext a
  apply Fin.ext
  match a with
  | ⟨0, _⟩ => show win0_3.index t (0 : Fin 3) * 1 + 1 * 0 = t.val / 16; omega
  | ⟨1, _⟩ => show win0_3.index t (1 : Fin 3) * 512 + 1 * r.val = t.val / 4 % 4 * 512 + r.val; omega
  | ⟨2, _⟩ => show win0_3.index t (2 : Fin 3) * 1 + 1 * 0 = 0; omega

/-- The key norms' row at t: entries ki · 512 + j of slab bh. -/
theorem iblk4_apply (c : Dev nD) (t : Fin cfg0.N) (j : Fin 512) :
    iblk m c 4 t (ix3 (0 : Fin 1) (0 : Fin 1) j)
      = (V m c main_v15 : S32x1x2048.Idx → Elt F .f32) (ix3 (bhOf t) (0 : Fin 1) (kRow t j)) := by
  obtain ⟨e0, e1, e2⟩ := idx4 t
  unfold iblk
  rw [View.read_apply]
  show V m c main_v15 (((cfg0.win 4).blk t).view.emb (ix3 (0 : Fin 1) (0 : Fin 1) j)) = V m c main_v15 (ix3 (bhOf t) (0 : Fin 1) (kRow t j))
  congr 1
  funext a
  apply Fin.ext
  match a with
  | ⟨0, _⟩ => show win0_4.index t (0 : Fin 3) * 1 + 1 * 0 = t.val / 16; omega
  | ⟨1, _⟩ => show win0_4.index t (1 : Fin 3) * 1 + 1 * 0 = 0; omega
  | ⟨2, _⟩ => show win0_4.index t (2 : Fin 3) * 512 + 1 * j.val = t.val % 4 * 512 + j.val; omega

/-! ## The result window: its block read off a whole-array function, and the cover -/

/-- Any contents of the result array read through the block at t: rows qi · 512 + r of slab bh. -/
theorem read_blk5 (c : Dev nD) (G : Buf (Elt F) ((cfg0.win 5).arr.view.loc (c.tc : Thread nD τ))) (t : Fin cfg0.N)
    (r : Fin 512) (d : Fin 128) :
    ((cfg0.win 5).blk t).view.read (Elt F) G (ix3 (0 : Fin 1) r d)
      = (G : S32x2048x128.Idx → Elt F .f32) (ix3 (bhOf t) (qRow t r) d) := by
  obtain ⟨e0, e1, e2⟩ := idx5 t
  rw [View.read_apply]
  show (G : S32x2048x128.Idx → Elt F .f32) (((cfg0.win 5).blk t).view.emb (ix3 (0 : Fin 1) r d)) = (G : S32x2048x128.Idx → Elt F .f32) (ix3 (bhOf t) (qRow t r) d)
  congr 1
  funext a
  apply Fin.ext
  match a with
  | ⟨0, _⟩ => show win0_5.index t (0 : Fin 3) * 1 + 1 * 0 = t.val / 16; omega
  | ⟨1, _⟩ => show win0_5.index t (1 : Fin 3) * 512 + 1 * r.val = t.val / 4 % 4 * 512 + r.val; omega
  | ⟨2, _⟩ => show win0_5.index t (2 : Fin 3) * 128 + 1 * d.val = d.val; omega

/-- An index of the result array is in the block at t iff each coordinate is in the block's range on its axis. -/
theorem mem_blk5 (t : Fin cfg0.N) (i : S32x2048x128.Idx) :
    i ∈ ((cfg0.win 5).blk t).view.set ↔ ∀ a : Fin 3, win0_5.index t a * S1x512x128.size a ≤ (i a).val
      ∧ (i a).val < win0_5.index t a * S1x512x128.size a + S1x512x128.size a := by
  show i ∈ ((View.whole main_v16).slice (win0_5.rect t)).set ↔ _
  rw [View.set_slice_whole, Rect.mem_set_unit]
  exact Iff.rfl

/-- The blocks written back tile the result array: the entry (bh, R, d) is in the block of the point
    bh · 16 + (R / 512) · 4 + 3, the last key tile of its query tile. -/
theorem cover5 (c : Dev nD) : ∀ i : ((cfg0.win 5).arr.view.loc (c.tc : Thread nD τ)).2.ty.Idx,
    ∃ t : Fin cfg0.N, (cfg0.win 5).flush t = true ∧ i ∈ ((cfg0.win 5).blk t).view.set := by
  intro i
  have hN : cfg0.N = 512 := N_0
  have hi0 : ((i : S32x2048x128.Idx) 0).val < 32 := ((i : S32x2048x128.Idx) 0).isLt
  have hi1 : ((i : S32x2048x128.Idx) 1).val < 2048 := ((i : S32x2048x128.Idx) 1).isLt
  have hi2 : ((i : S32x2048x128.Idx) 2).val < 128 := ((i : S32x2048x128.Idx) 2).isLt
  let t : Fin cfg0.N := ⟨((i : S32x2048x128.Idx) 0).val * 16 + ((i : S32x2048x128.Idx) 1).val / 512 * 4 + 3, by omega⟩
  have ht : t.val = ((i : S32x2048x128.Idx) 0).val * 16 + ((i : S32x2048x128.Idx) 1).val / 512 * 4 + 3 := rfl
  obtain ⟨e0, e1, e2⟩ := idx5 t
  refine ⟨t, (flush0_5 t).mpr (by omega), ?_⟩
  rw [mem_blk5]
  intro a
  match a with
  | ⟨0, _⟩ => show win0_5.index t (0 : Fin 3) * 1 ≤ ((i : S32x2048x128.Idx) 0).val ∧ ((i : S32x2048x128.Idx) 0).val < win0_5.index t (0 : Fin 3) * 1 + 1; omega
  | ⟨1, _⟩ => show win0_5.index t (1 : Fin 3) * 512 ≤ ((i : S32x2048x128.Idx) 1).val ∧ ((i : S32x2048x128.Idx) 1).val < win0_5.index t (1 : Fin 3) * 512 + 512; omega
  | ⟨2, _⟩ => show win0_5.index t (2 : Fin 3) * 128 ≤ ((i : S32x2048x128.Idx) 2).val ∧ ((i : S32x2048x128.Idx) 2).val < win0_5.index t (2 : Fin 3) * 128 + 128; omega

end Cert.KernelIdeal.Blocks

end
-- ==== Proof.KernelIdeal.HostSide.lean ====
/-
  What the host operations around the one tiled call do, read at an index over the extended reals.

  Before the call the three arguments q, k, v : [2, 16, 2048, 128] are flattened to [32, 2048, 128]: row-major
  positions agree, so head (b, h) becomes row 16 b + h and entry (16 b + h, R, e) of the flattened array is entry
  (b, h, R, e) of the argument. The two norm arrays are made from q and from k alike: the squares are summed over the
  last axis starting from the zero word, the sum is broadcast to [2, 16, 2048, 1] and multiplied by the broadcast of
  the scale word; over the extended reals the host's sum is the exact sum, the zero word is 0, so the entry at
  (b, h, R, 0) is s · Σ_e x[b,h,R,e]², the specification's scaled squared norm. The query norms are flattened to
  [32, 2048, 1]; the key norms have their last two axes exchanged first and are flattened to [32, 1, 2048], so
  entry (16 b + h, 0, n) is the norm of key row (b, h, n). After the call the result array [32, 2048, 128] is
  reshaped back to [2, 16, 2048, 128], again by equal row-major positions.
-/
import proofs.«104374_j17832704213564_1_alg».proof.Proof.Gen.KernelIdeal.Frame
import proofs.«104374_j17832704213564_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.ShloMosaic.ValueIdx
open Idealize.SL.Sem
open Idealize.ShloMosaic.StableHlo

variable (m : (ℓ : Loc nD τ sig) → Buf (Elt Ideal) ℓ)

/-- head (b, h) as a row of the flattened [32, ...] arrays -/
abbrev flat (b : Fin 2) (h : Fin 16) : Fin 32 := ⟨b.val * 16 + h.val, by have := b.isLt; have := h.isLt; omega⟩

/-- A [2, 16, 2048, 128] array flattened to [32, 2048, 128], read at (16 b + h, R, e). -/
theorem flat3_apply (x : FVec Ideal S2x16x2048x128 .f32) (b : Fin 2) (h : Fin 16) (R : Fin 2048) (e : Fin 128) :
    shapeCast S32x2048x128 x shapeCasts_S2x16x2048x128_S32x2048x128 (ix3 (flat b h) R e) = x (ix4 b h R e) := by
  refine shapeCast_apply x _ (ix3 (flat b h) R e) (ix4 b h R e) ?_
  rw [Shape.rowMajor_val_three, Shape.rowMajor_val_four]
  show ((b.val * 16 + h.val) * 2048 + R.val) * 128 + e.val = ((b.val * 16 + h.val) * 2048 + R.val) * 128 + e.val
  rfl

/-- The query window's array is the first argument flattened. -/
theorem V_q_eq (c : Dev nD) :
    (V m c main_v11 : S32x2048x128.Idx → EReal)
      = shapeCast S32x2048x128 (m ((c : Thread nD τ).loc main_arg0)) shapeCasts_S2x16x2048x128_S32x2048x128 := by
  show StableHlo.after hostOps0 (fun b => m (c, b)) (Proc.devRef .tc main_v11) = _
  after_results
  rfl

/-- The key window's array is the second argument flattened. -/
theorem V_k_eq (c : Dev nD) :
    (V m c main_v12 : S32x2048x128.Idx → EReal)
      = shapeCast S32x2048x128 (m ((c : Thread nD τ).loc main_arg1)) shapeCasts_S2x16x2048x128_S32x2048x128 := by
  show StableHlo.after hostOps0 (fun b => m (c, b)) (Proc.devRef .tc main_v12) = _
  after_results
  rfl

/-- The value window's array is the third argument flattened. -/
theorem V_v_eq (c : Dev nD) :
    (V m c main_v13 : S32x2048x128.Idx → EReal)
      = shapeCast S32x2048x128 (m ((c : Thread nD τ).loc main_arg2)) shapeCasts_S2x16x2048x128_S32x2048x128 := by
  show StableHlo.after hostOps0 (fun b => m (c, b)) (Proc.devRef .tc main_v13) = _
  after_results
  rfl

theorem V_q (c : Dev nD) (b : Fin 2) (h : Fin 16) (R : Fin 2048) (e : Fin 128) :
    (V m c main_v11 : S32x2048x128.Idx → EReal) (ix3 (flat b h) R e)
      = (m ((c : Thread nD τ).loc main_arg0) : S2x16x2048x128.Idx → EReal) (ix4 b h R e) :=
  (congrFun (V_q_eq m c) (ix3 (flat b h) R e)).trans (flat3_apply _ b h R e)

theorem V_k (c : Dev nD) (b : Fin 2) (h : Fin 16) (R : Fin 2048) (e : Fin 128) :
    (V m c main_v12 : S32x2048x128.Idx → EReal) (ix3 (flat b h) R e)
      = (m ((c : Thread nD τ).loc main_arg1) : S2x16x2048x128.Idx → EReal) (ix4 b h R e) :=
  (congrFun (V_k_eq m c) (ix3 (flat b h) R e)).trans (flat3_apply _ b h R e)

theorem V_v (c : Dev nD) (b : Fin 2) (h : Fin 16) (R : Fin 2048) (e : Fin 128) :
    (V m c main_v13 : S32x2048x128.Idx → EReal) (ix3 (flat b h) R e)
      = (m ((c : Thread nD τ).loc main_arg2) : S2x16x2048x128.Idx → EReal) (ix4 b h R e) :=
  (congrFun (V_v_eq m c) (ix3 (flat b h) R e)).trans (flat3_apply _ b h R e)

/-- The scaled squared row norms as the program's host operations compute them from an argument array: the scale word
    broadcast, times the broadcast of the sum over the last axis of the squares. -/
def sqnArr (x : FVec Ideal S2x16x2048x128 .f32) : FVec Ideal S2x16x2048x1 .f32 :=
  mulf (broadcastInDim S2x16x2048x1 ![] bcast_S_S2x16x2048x1 (constant (F := Ideal) S_ .f32 0x3DB504F3#32))
    (broadcastInDim S2x16x2048x1 ![0, 1, 2] bcast_S2x16x2048_S2x16x2048x1_0_1_2
      (Host.reduceAdd (mulf x x) (constant (F := Ideal) S_ .f32 0x00000000#32) reducesTo_S2x16x2048x128_S2x16x2048_d3 h_S_))

/-- The program's norms array read at (b, h, R, 0) is the specification's scaled squared norm of row (b, h, R): the
    scale word's broadcast reads the word, the other broadcast reads the host's sum at (b, h, R), which at the extended
    reals is its initial value 0 plus the sum of the squares over the last axis. -/
theorem sqnArr_apply (x : FVec Ideal S2x16x2048x128 .f32) (b : Fin 2) (h : Fin 16) (R : Fin 2048) :
    sqnArr x (ix4 b h R 0) = Cert.Spec.sqn x b h R := by
  unfold sqnArr Cert.Spec.sqn
  rw [mulf_apply]
  rw [broadcastInDim_apply ![] bcast_S_S2x16x2048x1 _ (ix4 b h R 0) ix0 (fun a => a.elim0)]
  rw [broadcastInDim_apply ![0, 1, 2] bcast_S2x16x2048_S2x16x2048x1_0_1_2 _ (ix4 b h R 0) (ix3 b h R)
    (fun a => by match a with | ⟨0, _⟩ => rfl | ⟨1, _⟩ => rfl | ⟨2, _⟩ => rfl)]
  rw [constant_apply]
  simp only [Host.reduceAdd, Ideal.hostReduceAdd_def]
  rw [Ideal.hostReduceAdd_single reducesTo_S2x16x2048x128_S2x16x2048_d3 (by decide)]
  rw [constant_apply, Ideal.ofBits_zero_f32, zero_add]
  refine congrArg (Cert.Spec.sc * ·) (Finset.sum_congr rfl fun k _ => ?_)
  have e : ∀ i : S2x16x2048x128.Idx, i = ix4 b h R k → mulf x x i = x (ix4 b h R k) * x (ix4 b h R k) := by
    rintro _ rfl; rfl
  exact e _ (funext fun a => Fin.ext (by match a with | ⟨0, _⟩ => rfl | ⟨1, _⟩ => rfl | ⟨2, _⟩ => rfl | ⟨3, _⟩ => rfl))

/-- The query-norm window's array is the first argument's norms array flattened. -/
theorem V_qs_eq (c : Dev nD) :
    (V m c main_v14 : S32x2048x1.Idx → EReal)
      = shapeCast S32x2048x1 (sqnArr (m ((c : Thread nD τ).loc main_arg0))) shapeCasts_S2x16x2048x1_S32x2048x1 := by
  show StableHlo.after hostOps0 (fun b => m (c, b)) (Proc.devRef .tc main_v14) = _
  after_results
  rfl

/-- The key-norm window's array is the second argument's norms array with its last two axes exchanged, flattened. -/
theorem V_ks_eq (c : Dev nD) :
    (V m c main_v15 : S32x1x2048.Idx → EReal)
      = shapeCast S32x1x2048 (transpose S2x16x1x2048 [0, 1, 3, 2] (sqnArr (m ((c : Thread nD τ).loc main_arg1))) transposes_S2x16x2048x1_S2x16x1x2048_0_1_3_2) shapeCasts_S2x16x1x2048_S32x1x2048 := by
  show StableHlo.after hostOps0 (fun b => m (c, b)) (Proc.devRef .tc main_v15) = _
  after_results
  rfl

theorem V_qs (c : Dev nD) (b : Fin 2) (h : Fin 16) (R : Fin 2048) :
    (V m c main_v14 : S32x2048x1.Idx → EReal) (ix3 (flat b h) R 0)
      = Cert.Spec.sqn (m ((c : Thread nD τ).loc main_arg0)) b h R := by
  refine (congrFun (V_qs_eq m c) (ix3 (flat b h) R 0)).trans ?_
  refine (shapeCast_apply _ shapeCasts_S2x16x2048x1_S32x2048x1 (ix3 (flat b h) R 0) (ix4 b h R 0) ?_).trans (sqnArr_apply _ b h R)
  rw [Shape.rowMajor_val_three, Shape.rowMajor_val_four]
  show ((b.val * 16 + h.val) * 2048 + R.val) * 1 + 0 = ((b.val * 16 + h.val) * 2048 + R.val) * 1 + 0
  rfl

theorem V_ks (c : Dev nD) (b : Fin 2) (h : Fin 16) (n : Fin 2048) :
    (V m c main_v15 : S32x1x2048.Idx → EReal) (ix3 (flat b h) 0 n)
      = Cert.Spec.sqn (m ((c : Thread nD τ).loc main_arg1)) b h n := by
  refine (congrFun (V_ks_eq m c) (ix3 (flat b h) 0 n)).trans ?_
  refine (shapeCast_apply _ shapeCasts_S2x16x1x2048_S32x1x2048 (ix3 (flat b h) 0 n) (ix4 b h 0 n) ?_).trans ?_
  · rw [Shape.rowMajor_val_three, Shape.rowMajor_val_four]
    show ((b.val * 16 + h.val) * 1 + 0) * 2048 + n.val = ((b.val * 16 + h.val) * 1 + 0) * 2048 + n.val
    rfl
  · refine (transpose_apply [0, 1, 3, 2] _ transposes_S2x16x2048x1_S2x16x1x2048_0_1_3_2 (ix4 b h 0 n) (ix4 b h n 0) ?_).trans (sqnArr_apply _ b h n)
    intro a
    match a with
    | ⟨0, _⟩ => rfl
    | ⟨1, _⟩ => rfl
    | ⟨2, _⟩ => rfl
    | ⟨3, _⟩ => rfl

/-- After the region the one host operation left reshapes the result window's array back to [2, 16, 2048, 128]. -/
theorem tail_out_eq (dats : (p : Fin 1) → (c : Dev nD) → Pipeline.Dat τ (Elt Ideal) Unit ℕ (UR sig nD τ) ℕ (cfgs p) c) (c : Dev nD) :
    (Pipeline.afterTail₀ cfgs dats 0 (V0 m) [hostOps1] c main_v17 : S2x16x2048x128.Idx → EReal)
      = shapeCast S2x16x2048x128 ((dats 0 c).arrAt 5 cfg0.N : S32x2048x128.Idx → EReal) shapeCasts_S32x2048x128_S2x16x2048x128 := by
  unfold Pipeline.afterTail₀
  show StableHlo.after hostOps1 _ (Proc.devRef .tc main_v17) = _
  after_results
  have e : Pipeline.withArrays (cfgs 0).spec c (V0 m c) (fun w => (dats 0 c).arrAt w (cfgs 0).N) (Proc.devRef .tc main_v16)
      = (dats 0 c).arrAt 5 cfg0.N := Pipeline.withArrays_arr spec0 launch0.win.arr_inj c _ _ 5
  rw [e]
  rfl

theorem tail_out (dats : (p : Fin 1) → (c : Dev nD) → Pipeline.Dat τ (Elt Ideal) Unit ℕ (UR sig nD τ) ℕ (cfgs p) c) (c : Dev nD)
    (b : Fin 2) (h : Fin 16) (R : Fin 2048) (d : Fin 128) :
    (Pipeline.afterTail₀ cfgs dats 0 (V0 m) [hostOps1] c main_v17 : S2x16x2048x128.Idx → EReal) (ix4 b h R d)
      = ((dats 0 c).arrAt 5 cfg0.N : S32x2048x128.Idx → EReal) (ix3 (flat b h) R d) := by
  refine (congrFun (tail_out_eq m dats c) (ix4 b h R d)).trans ?_
  refine shapeCast_apply _ shapeCasts_S32x2048x128_S2x16x2048x128 (ix4 b h R d) (ix3 (flat b h) R d) ?_
  rw [Shape.rowMajor_val_three, Shape.rowMajor_val_four]
  show ((b.val * 16 + h.val) * 2048 + R.val) * 128 + d.val = ((b.val * 16 + h.val) * 2048 + R.val) * 128 + d.val
  rfl

end Cert.KernelIdeal.HostSide
end
-- ==== Proof.KernelIdeal.Value.lean ====
/-
  The idealized kernel's result. Fix a query row: head (b, h), row R = 512 qi + r, column d. Its output block stays in
  the staging buffer while the key tile ki runs over 0, 1, 2, 3. By induction on the grid point, after the point
  (bh, qi, ki) the buffer holds at (r, d) the specification's sum cut at the first (min ki qi + 1) · 512 keys: the reset
  point stores 0 plus tile 0's 512 terms, each later point with ki ≤ qi adds tile ki's 512 terms, and the points with
  ki > qi leave it alone. Each term of a tile is the specification's term because the point's blocks are the argument
  arrays' rows (the windows' index maps), the norms' blocks are the scaled squared norms (the host operations before the
  region), and the tile's mask compares the same two row numbers. After ki = 3 the cut is at (qi + 1) · 512 > R, past which
  every term vanishes, so the block written back is the specification's; the blocks written back cover the array, and
  the reshape after the region gives the result array of shape [2, 16, 2048, 128].
-/
import proofs.«104374_j17832704213564_1_alg».proof.Proof.KernelIdeal.Body
import proofs.«104374_j17832704213564_1_alg».proof.Proof.KernelIdeal.Pieces
import proofs.«104374_j17832704213564_1_alg».proof.Proof.KernelIdeal.Payload
import proofs.«104374_j17832704213564_1_alg».proof.Proof.KernelIdeal.Blocks
import proofs.«104374_j17832704213564_1_alg».proof.Proof.KernelIdeal.HostSide
import Idealize.ShloMosaic.Lib.Pipeline.Value

set_option maxRecDepth 16384

noncomputable section

open scoped BigOperators

namespace Cert.KernelIdeal.Result

open Cert.KernelIdeal Cert.KernelIdeal.Gen Cert.KernelIdeal.Hand Cert.KernelIdeal.Blocks Cert.KernelIdeal.HostSide
open Cert.KernelIdeal.Payload Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The three argument arrays as launched. -/
abbrev qA (c : Dev nD) : SQ.Idx → EReal := m ((c : Thread nD τ).loc main_arg0)
abbrev kA (c : Dev nD) : SQ.Idx → EReal := m ((c : Thread nD τ).loc main_arg1)
abbrev vA (c : Dev nD) : SQ.Idx → EReal := m ((c : Thread nD τ).loc main_arg2)

/-! ## A grid point's coordinates -/

theorem lt512 {n : ℕ} (hn : n < cfg0.N) : n < 512 := lt_of_lt_of_eq hn N_0

/-- The batch, the head, the query tile and the key tile of position `n`. -/
abbrev bT (n : ℕ) (hn : n < cfg0.N) : Fin 2 := ⟨n / 256, by have := lt512 hn; omega⟩
abbrev hT (n : ℕ) : Fin 16 := ⟨n / 16 % 16, by omega⟩
abbrev qiT (n : ℕ) : Fin 4 := ⟨n / 4 % 4, by omega⟩
abbrev kiT (n : ℕ) : Fin 4 := ⟨n % 4, by omega⟩

/-- The grid coordinates the body reads, in closed form. -/
theorem coords1 : ∀ t : Fin cfg0.N, ((grid0.coords t) 1).val = t.val / 4 % 4 :=
  (by decide +kernel : ∀ t : Fin grid0.N, ((grid0.coords t) 1).val = t.val / 4 % 4)
theorem coords2 : ∀ t : Fin cfg0.N, ((grid0.coords t) 2).val = t.val % 4 :=
  (by decide +kernel : ∀ t : Fin grid0.N, ((grid0.coords t) 2).val = t.val % 4)

theorem bh_flat (t : Fin cfg0.N) : bhOf t = flat (bT t.val t.isLt) (hT t.val) :=
  Fin.ext (by show t.val / 16 = t.val / 256 * 16 + t.val / 16 % 16; omega)

/-! ## One tile's sum is 512 terms of the specification -/

theorem tile_eq (c : Dev nD) (t : Fin cfg0.N) (r : Fin 512) (d : Fin 128) :
    tileSum (qiT t.val) (kiT t.val) (iblk m c 0 t) (iblk m c 1 t) (iblk m c 2 t) (iblk m c 3 t) (iblk m c 4 t) r d
      = ∑ j : Fin 512, term (qA m c) (kA m c) (vA m c) (bT t.val t.isLt) (hT t.val) (qRow t r) d (kRow t j) := by
  unfold tileSum
  refine Finset.sum_congr rfl fun j _ => ?_
  unfold term qk
  simp only [iblk0_apply, iblk1_apply, iblk2_apply, iblk3_apply, iblk4_apply, bh_flat]
  refine congrArg₂ (· * ·) ?_ (V_v m c _ _ _ _)
  refine congr (congr (congrArg (wt _) ?_) (V_qs m c _ _ _)) (V_ks m c _ _ _)
  exact Finset.sum_congr rfl fun e _ => congrArg₂ (· * ·) (V_q m c _ _ _ _) (V_k m c _ _ _ _)

/-- One accumulating store at (r, d): what was there plus the tile's terms. -/
theorem store_eq (c : Dev nD) (t : Fin cfg0.N) (prev : Vec Ideal S1x512x128 .f32) (r : Fin 512) (d : Fin 128) :
    k0_pay2 (F := Ideal) (k0_pay3 (BitVec.ofNat 32 ((grid0.coords t) 1).val) (BitVec.ofNat 32 ((grid0.coords t) 2).val)
        (iblk m c 0 t) (iblk m c 1 t) (iblk m c 2 t) (iblk m c 3 t) (iblk m c 4 t)) prev (ix3 (0 : Fin 1) r d)
      = prev (ix3 (0 : Fin 1) r d)
        + ∑ j : Fin 512, term (qA m c) (kA m c) (vA m c) (bT t.val t.isLt) (hT t.val) (qRow t r) d (kRow t j) := by
  rw [coords1 t, coords2 t]
  refine (pay2_apply (qiT t.val) (kiT t.val) (iblk m c 0 t) (iblk m c 1 t) (iblk m c 2 t) (iblk m c 3 t) (iblk m c 4 t) prev r d).trans ?_
  rw [tile_eq]

/-! ## The output buffer after each point -/

theorem part_step (q k v : SQ.Idx → EReal) (b : Fin 2) (h : Fin 16) (R : Fin 2048) (d : Fin 128) (ki : Fin 4) (M M' : ℕ)
    (hM : M = ki.val * 512) (hM' : M' = ki.val * 512 + 512) :
    attnPart q k v b h R d M
        + ∑ j : Fin 512, term q k v b h R d ⟨ki.val * 512 + j.val, by have := ki.isLt; have := j.isLt; omega⟩
      = attnPart q k v b h R d M' := by
  subst hM hM'; exact (attnPart_tile q k v b h R d ki).symm

/-- After position `n` the buffer holds the specification's sum cut at the first (min ki qi + 1) · 512 keys. -/
theorem acc_eq (c : Dev nD) : ∀ (n : ℕ) (hn : n < cfg0.N) (r : Fin 512) (d : Fin 128),
    accAt m c n hn (ix3 (0 : Fin 1) r d)
      = attnPart (qA m c) (kA m c) (vA m c) (bT n hn) (hT n) (qRow ⟨n, hn⟩ r) d ((min (n % 4) (n / 4 % 4) + 1) * 512)
  | n, hn, r, d => by
    by_cases h0 : n % 4 = 0
    · rw [accAt_reset m c ⟨n, hn⟩ h0, outReset_eq, store_eq, pay1_apply, zero_add]
      have hz : attnPart (qA m c) (kA m c) (vA m c) (bT n hn) (hT n) (qRow ⟨n, hn⟩ r) d 0 = 0 := attnPart_zero ..
      rw [← zero_add (∑ j : Fin 512, _), ← hz]
      exact part_step _ _ _ _ _ _ _ (kiT n) 0 _ (by show 0 = n % 4 * 512; omega)
        (by show (min (n % 4) (n / 4 % 4) + 1) * 512 = n % 4 * 512 + 512; rw [h0]; simp)
    · obtain ⟨k, rfl⟩ : ∃ k, n = k + 1 := ⟨n - 1, by omega⟩
      have hk : k < cfg0.N := Nat.lt_of_succ_lt hn
      have e1 : bT k hk = bT (k + 1) hn := Fin.ext (by show k / 256 = (k + 1) / 256; omega)
      have e2 : hT k = hT (k + 1) := Fin.ext (by show k / 16 % 16 = (k + 1) / 16 % 16; omega)
      have e3 : qRow ⟨k, hk⟩ r = qRow ⟨k + 1, hn⟩ r := Fin.ext (by show k / 4 % 4 * 512 + r.val = (k + 1) / 4 % 4 * 512 + r.val; omega)
      have ih := acc_eq c k hk r d
      rw [e1, e2, e3] at ih
      by_cases h1 : (k + 1) % 4 ≤ (k + 1) / 4 % 4
      · rw [accAt_add m c ⟨k + 1, hn⟩ h0 h1, outAdd_eq, store_eq]
        show accAt m c k hk (ix3 (0 : Fin 1) r d) + _ = _
        rw [ih]
        exact part_step _ _ _ _ _ _ _ (kiT (k + 1)) _ _
          (by show (min (k % 4) (k / 4 % 4) + 1) * 512 = (k + 1) % 4 * 512; rw [Nat.min_def]; split <;> omega)
          (by show (min ((k + 1) % 4) ((k + 1) / 4 % 4) + 1) * 512 = (k + 1) % 4 * 512 + 512; rw [Nat.min_def]; split <;> omega)
      · rw [accAt_skip m c ⟨k + 1, hn⟩ h0 h1]
        show accAt m c k hk (ix3 (0 : Fin 1) r d) = _
        rw [ih]
        congr 1
        rw [Nat.min_def, Nat.min_def]; split_ifs <;> omega
  termination_by n => n

/-! ## The result array -/

/-- The pallas_call's result array [32, 2048, 128]: row bh = 16 b + h holds head (b, h) of the specification. -/
def flatOut (c : Dev nD) : S32x2048x128.Idx → EReal := fun i =>
  attnAt (qA m c) (kA m c) (vA m c) ⟨(i 0).val / 16, by have h : (i 0).val < 32 := (i 0).isLt; omega⟩
    ⟨(i 0).val % 16, by omega⟩ ⟨(i 1).val, (i 1).isLt⟩ ⟨(i 2).val, (i 2).isLt⟩

/-- What a point with ki = 3 writes back is its block of the result array. -/
theorem flushed_eq (c : Dev nD) (t : Fin cfg0.N) (hf : (cfg0.win 5).flush t = true) :
    (dats m 0 c).flushed 5 t = ((cfg0.win 5).blk t).view.read (Elt Ideal) (flatOut m c) := by
  have h3 : t.val % 4 = 3 := (flush0_5 t).mp hf
  have hN := lt512 t.isLt
  show (cfg0.win 5).cut (grid0.coords t) ((dats m 0 c).after 5 t) = _
  rw [after5]
  funext y
  obtain ⟨a, r, d, rfl⟩ : ∃ (a : Fin 1) (r : Fin 512) (d : Fin 128), y = ix3 a r d :=
    ⟨(y : S1x512x128.Idx) 0, (y : S1x512x128.Idx) 1, (y : S1x512x128.Idx) 2, eq_ix3 (y : S1x512x128.Idx)⟩
  obtain rfl : a = 0 := Subsingleton.elim _ _
  show accAt m c t.val t.isLt (ix3 (0 : Fin 1) r d) = _
  rw [acc_eq, read_blk5 c]
  unfold flatOut
  rw [attnPart_past _ _ _ _ _ _ _ _ (by show t.val / 4 % 4 * 512 + r.val < (min (t.val % 4) (t.val / 4 % 4) + 1) * 512; rw [h3, Nat.min_def]; split <;> omega)]
  congr 1 <;> exact Fin.ext (by first | (show t.val / 256 = t.val / 16 / 16; omega) | (show t.val / 16 % 16 = t.val / 16 % 16; rfl) | rfl)

/-- The result array after the run. -/
theorem final5 (c : Dev nD) : (dats m 0 c).arrAt 5 cfg0.N = flatOut m c :=
  (dats m 0 c).arrAt_eq_of_cover 5 (flatOut m c) (flushed_eq m c) (cover5 c)

/-- The reshape after the region: the program's result is the specification of the argument arrays. -/
theorem result_eq (c : Dev nD) :
    Pipeline.afterTail₀ cfgs (dats m) 0 (V0 m) [hostOps1] c main_v17 = attn (qA m c) (kA m c) (vA m c) := by
  funext i
  obtain ⟨b, h, R, d, rfl⟩ : ∃ (b : Fin 2) (h : Fin 16) (R : Fin 2048) (d : Fin 128), i = ix4 b h R d :=
    ⟨(i : SQ.Idx) 0, (i : SQ.Idx) 1, (i : SQ.Idx) 2, (i : SQ.Idx) 3, eq_ix4 (i : SQ.Idx)⟩
  rw [tail_out, final5]
  unfold flatOut attn
  congr 1 <;> exact Fin.ext (by first | (show (b.val * 16 + h.val) / 16 = b.val; have := h.isLt; omega) | (show (b.val * 16 + h.val) % 16 = h.val; have := h.isLt; omega) | rfl)

/-! ## The run, read -/

/-- Every weakly fair execution of the idealized kernel terminates with its result array at the specification of its
    argument arrays, and the argument arrays unchanged. -/
theorem run : θ_run defs (onTc (τ := τ) (main (F := Ideal))) ⟨m, fun _ => 0, ρ⟩ fun r => ∀ c : Dev nD,
      r.2.mem ((c.tc : Thread nD τ).loc main_v17) = attn (qA m c) (kA m c) (vA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v17 (Pipeline.mem_restRefs_of main_v17 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Result

end
-- ==== Proof.RefValue.lean ====
/-
  The reference program's result, read at an index, is the specification: out[b,h,r,d] is the sum over the keys n of
  the weight of key n for query r times v[b,h,n,d], the weight being exp of the logit inside the causal triangle
  and exp (−∞) = 0 outside it.
-/
import proofs.«104374_j17832704213564_1_alg».proof.Proof.Gen.ReferenceIdeal.Read
import proofs.«104374_j17832704213564_1_alg».proof.Proof.Spec
import Idealize.ShloMosaic.Lib.StableHlo.Predicate

noncomputable section

open scoped BigOperators

namespace Cert.RefValue

open Idealize.ShloMosaic Idealize.ShloMosaic.ValueIdx Idealize.ShloMosaic.StableHlo
open Cert.ReferenceIdeal Cert.ReferenceIdeal.Read Cert.Spec

/-! ## The constants -/

/-- The word of 2.0 denotes 2. -/
theorem ofBits_two : Ideal.ofBits .f32 0x40000000#32 = ((2 : ℝ) : EReal) := by
  simp [Ideal.ofBits, Ideal.ieee, -EReal.coe_mul]; norm_num

/-- The scale's word denotes 11863283 · 2⁻²⁷. -/
theorem sc_eq : sc = ((11863283 * (2 : ℝ) ^ (-27 : ℤ) : ℝ) : EReal) := by
  simp [sc, Ideal.ofBits, Ideal.ieee, -EReal.coe_mul]

/-- The doubled scale's word denotes 11863283 · 2⁻²⁶. -/
theorem sc2_eq : sc2 = ((11863283 * (2 : ℝ) ^ (-26 : ℤ) : ℝ) : EReal) := by
  simp [sc2, Ideal.ofBits, Ideal.ieee, -EReal.coe_mul]

/-- Twice the scale is the doubled scale: the same significand, the exponent one higher. -/
theorem two_mul_sc : Ideal.ofBits .f32 0x40000000#32 * sc = sc2 := by
  rw [ofBits_two, sc_eq, sc2_eq, ← EReal.coe_mul]
  congr 1
  norm_num

/-- The word of −∞ denotes ⊥. -/
theorem ofBits_neg_inf : Ideal.ofBits .f32 0xFF800000#32 = ⊥ := by
  simp [Ideal.ofBits, Ideal.ieee]

/-! ## The causal mask -/

/-- The signed compare of the two iotas: key n is visible to query r exactly when n ≤ r. -/
theorem mask_iff (r n : Fin 2048) :
    IntOp.cmpi .sge (IntOp.addi (BitVec.ofNat 32 r.val) 0#32) (BitVec.ofNat 32 n.val) = 1#1 ↔ n.val ≤ r.val := by
  have hr : (BitVec.ofNat 32 r.val).toNat = r.val := by
    rw [BitVec.toNat_ofNat]; exact Nat.mod_eq_of_lt (by have := r.isLt; omega)
  have hn : (BitVec.ofNat 32 n.val).toNat = n.val := by
    rw [BitVec.toNat_ofNat]; exact Nat.mod_eq_of_lt (by have := n.isLt; omega)
  have h0 : IntOp.addi (BitVec.ofNat 32 r.val) 0#32 = BitVec.ofNat 32 r.val := by
    unfold IntOp.addi; exact BitVec.add_zero _
  rw [h0, Predicate.sge_iff_toNat (by rw [hr]; have := r.isLt; omega) (by rw [hn]; have := n.isLt; omega), hr, hn]

/-! ## Index equations: the generated index maps at an index given by its coordinates -/

section Indices
variable (b : Fin 2) (h : Fin 16) (r n : Fin 2048) (d k : Fin 128)

theorem lidx22 : lidx_main_v22 (ix4 b h r d) n = ix4 b h r n :=
  funext fun a => by match a with | ⟨0, _⟩ => rfl | ⟨1, _⟩ => rfl | ⟨2, _⟩ => rfl | ⟨3, _⟩ => rfl

theorem ridx22 : ridx_main_v22 (ix4 b h r d) n = ix4 b h n d :=
  funext fun a => by match a with | ⟨0, _⟩ => rfl | ⟨1, _⟩ => rfl | ⟨2, _⟩ => rfl | ⟨3, _⟩ => rfl

theorem lidx8 : lidx_main_v8 (ix4 b h r n) k = ix4 b h r k :=
  funext fun a => by match a with | ⟨0, _⟩ => rfl | ⟨1, _⟩ => rfl | ⟨2, _⟩ => rfl | ⟨3, _⟩ => rfl

theorem ridx8 : ridx_main_v8 (ix4 b h r n) k = ix4 b h n k :=
  funext fun a => by match a with | ⟨0, _⟩ => rfl | ⟨1, _⟩ => rfl | ⟨2, _⟩ => rfl | ⟨3, _⟩ => rfl

theorem idx1 : idx_main_v1 (ix3 b h r) k = ix4 b h r k :=
  funext fun a => by match a with | ⟨0, _⟩ => rfl | ⟨1, _⟩ => rfl | ⟨2, _⟩ => rfl | ⟨3, _⟩ => rfl

theorem idx5 : idx_main_v5 (ix3 b h n) k = ix4 b h n k :=
  funext fun a => by match a with | ⟨0, _⟩ => rfl | ⟨1, _⟩ => rfl | ⟨2, _⟩ => rfl | ⟨3, _⟩ => rfl

theorem idx12_13 : idx_main_v12 (idx_main_v13 (ix4 b h r n)) = ix3 b h r :=
  funext fun a => by match a with | ⟨0, _⟩ => rfl | ⟨1, _⟩ => rfl | ⟨2, _⟩ => rfl

theorem idx15_16 : idx_main_v15 (idx_main_v16 (ix4 b h r n)) = ix3 b h n :=
  funext fun a => by match a with | ⟨0, _⟩ => rfl | ⟨1, _⟩ => rfl | ⟨2, _⟩ => rfl

theorem idxMask : idx_main_call1_v1 (ix4 b h r n) = ix2 r n :=
  funext fun a => by match a with | ⟨0, _⟩ => rfl | ⟨1, _⟩ => rfl

end Indices

/-! ## The stages at an index -/

section Stages
variable (x0 x1 x2 : (⟨S2x16x2048x128, .f32⟩ : BufTy).Contents (Elt Ideal))
variable (b : Fin 2) (h : Fin 16) (r n : Fin 2048) (d : Fin 128)

/-- The scaled squared norm of a query row. -/
theorem v3_at : val_main_v3 (F := Ideal) x0 (ix3 b h r) = sqn x0 b h r := by
  rw [val_main_v3_apply, val_main_v2_apply, val_main_cst_0_apply, val_main_v1_apply, val_main_cst_apply]
  simp only [val_main_v0_apply, idx1, Ideal.mulf_def, Ideal.ofBits_def, Ideal.ofBits_zero_f32, zero_add]
  rfl

/-- The scaled squared norm of a key row. -/
theorem v7_at : val_main_v7 (F := Ideal) x1 (ix3 b h n) = sqn x1 b h n := by
  rw [val_main_v7_apply, val_main_v6_apply, val_main_cst_2_apply, val_main_v5_apply, val_main_cst_1_apply]
  simp only [val_main_v4_apply, idx5, Ideal.mulf_def, Ideal.ofBits_def, Ideal.ofBits_zero_f32, zero_add]
  rfl

/-- The dot product of a query row and a key row. -/
theorem v8_at : val_main_v8 (F := Ideal) x0 x1 (ix4 b h r n) = qk x0 x1 b h r n := by
  rw [val_main_v8_apply]
  simp only [lidx8, ridx8]
  rfl

/-- The logit. -/
theorem v17_at :
    val_main_v17 (F := Ideal) x0 x1 (ix4 b h r n) = sc2 * qk x0 x1 b h r n - sqn x0 b h r - sqn x1 b h n := by
  rw [val_main_v17_apply, val_main_v14_apply, val_main_v11_apply, val_main_v10_apply, val_main_v9_apply,
    val_main_cst_3_apply, val_main_cst_4_apply, val_main_v13_apply, val_main_v12_apply, val_main_v16_apply,
    val_main_v15_apply, idx12_13, idx15_16, v3_at, v7_at, v8_at]
  simp only [Ideal.mulf_def, Ideal.subf_def, Ideal.ofBits_def]
  rw [two_mul_sc]

/-- The mask bit: set exactly inside the causal triangle. -/
theorem mask_at : val_main_call1_v1 (F := Ideal) (ix4 b h r n) = if n.val ≤ r.val then 1#1 else 0#1 := by
  rw [val_main_call1_v1_apply, idxMask, val_main_v19_apply, val_main_call0_v4_apply, val_main_call0_v2_apply,
    val_main_call0_v0_apply, val_main_call0_v1_apply, val_main_call0_c_apply, val_main_call0_v3_apply,
    val_main_v18_apply, val_main_c_apply, val_main_call0_v5_apply, val_main_call0_c_0_apply]
  show Scalar.select (IntOp.cmpi .sge (IntOp.addi (BitVec.ofNat 32 r.val) 0#32) (BitVec.ofNat 32 n.val)) 1#1 0#1 = _
  by_cases hv : n.val ≤ r.val
  · rw [(mask_iff r n).mpr hv, select_one, if_pos hv]
  · rw [eq_zero_of_ne_one (fun e => hv ((mask_iff r n).mp e)), select_zero, if_neg hv]

/-- The masked logit: −∞ outside the triangle. -/
theorem v20_at :
    val_main_v20 (F := Ideal) x0 x1 (ix4 b h r n)
      = if n.val ≤ r.val then sc2 * qk x0 x1 b h r n - sqn x0 b h r - sqn x1 b h n else ⊥ := by
  rw [val_main_v20_apply, mask_at, v17_at, val_main_call1_v2_apply, val_main_call1_v0_apply, val_main_cst_5_apply,
    Ideal.ofBits_def, ofBits_neg_inf]
  by_cases hv : n.val ≤ r.val
  · rw [if_pos hv, if_pos hv, select_one]
  · rw [if_neg hv, if_neg hv, select_zero]

/-- The weight of key n for query r. -/
theorem v21_at :
    val_main_v21 (F := Ideal) x0 x1 (ix4 b h r n)
      = wt (n.val ≤ r.val) (qk x0 x1 b h r n) (sqn x0 b h r) (sqn x1 b h n) := by
  rw [val_main_v21_apply, v20_at, Ideal.hostUnary_exp_def, wt_eq_exp_ite]

end Stages

/-! ## The reference is the specification -/

theorem ref_is_attn (x0 x1 x2 : (⟨Cert.ReferenceIdeal.S2x16x2048x128, .f32⟩ : BufTy).Contents (Elt Ideal)) :
    Cert.ReferenceIdeal.Read.val_main_v22 (F := Ideal) x0 x1 x2 = Cert.Spec.attn x0 x1 x2 := by
  funext i
  obtain ⟨b, h, r, d, rfl⟩ : ∃ (b : Fin 2) (h : Fin 16) (r : Fin 2048) (d : Fin 128), i = ix4 b h r d :=
    ⟨i 0, i 1, i 2, i 3, eq_ix4 i⟩
  rw [val_main_v22_apply]
  show _ = attnAt x0 x1 x2 b h r d
  unfold attnAt term
  refine Finset.sum_congr rfl fun n _ => ?_
  rw [lidx22, ridx22, v21_at]

end Cert.RefValue

end
-- ==== Proof.lean ====
/-
  The certificate: the tiled causal attention kernel with exponential (unnormalized) weights against its jnp reference.
  Both idealized programs end with the specification `Cert.Spec.attn` of the three argument arrays:

      out[b,h,r,d] = Σ_{n ≤ r} exp (2s · q[b,h,r,:]·k[b,h,n,:] − s‖q[b,h,r,:]‖² − s‖k[b,h,n,:]‖²) · v[b,h,n,d],

  s the value of the f32 word nearest 1/√128. The kernel takes the sum 512 keys at a time, skipping the tiles past the
  diagonal and masking inside the diagonal tile with a constant named −∞ (whose exponential is 0); the reference masks
  with −∞ over all 2048 keys. The kernel's doubled scale is one f32 word, the reference's the product of the words 2 and
  s: the same real number. Sums of extended reals regroup freely and a zero weight annihilates its term, so the claim
  needs no finiteness of the inputs. The frames of the two kernel programs are the pipeline's launch theorem over the
  body's three runs (reset, add, skip); the reference's frame is its run with the result dropped; `preserves` is the
  named constant's one ledger entry.
-/
import proofs.«104374_j17832704213564_1_alg».proof.Defs
import proofs.«104374_j17832704213564_1_alg».proof.Proof.Gen.Kernel
import proofs.«104374_j17832704213564_1_alg».proof.Proof.Gen.KernelIdeal
import proofs.«104374_j17832704213564_1_alg».proof.Proof.Gen.ReferenceIdeal
import proofs.«104374_j17832704213564_1_alg».proof.Proof.Gen.Pre_finite_inputs
import proofs.«104374_j17832704213564_1_alg».proof.Proof.Gen.ReferenceIdeal.Run
import proofs.«104374_j17832704213564_1_alg».proof.Proof.Gen.ReferenceIdeal.Read
import proofs.«104374_j17832704213564_1_alg».proof.Proof.Kernel.Body
import proofs.«104374_j17832704213564_1_alg».proof.Proof.KernelIdeal.Value
import proofs.«104374_j17832704213564_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its arguments as launched. -/
theorem frame_kernel : Cert.frame_Kernel := fun m ρ _ => Cert.Kernel.Hand.frame m ρ

/-- The same for the idealized kernel. -/
theorem frame_kernelIdeal : Cert.frame_KernelIdeal := fun m ρ _ => Cert.KernelIdeal.Hand.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ledger's one entry: the mask's fill constant is named −∞. -/
theorem preserves : Cert.preserves_Kernel_KernelIdeal :=
  IdealRules.named_const.statement Cert.KernelIdeal.κ "neg_big" .f32 0xF149F2CA#32 ⊥ rfl

/-- From memories that agree on q, k, v both idealized programs end with the specification of q, k, v. -/
theorem algebraic : Cert.algebraic_KernelIdeal_ReferenceIdeal := by
  intro m ρ m' ρ' _ hagree
  refine ⟨fun c => Cert.Spec.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.RefValue.ref_is_attn, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
